-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S27x64x64 : Shape := ⟨3, ![27, 64, 64]⟩
abbrev S64 : Shape := ⟨1, ![64]⟩
abbrev S27x100000 : Shape := ⟨2, ![27, 100000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S200000x64 .f32) (main_arg1 : FVec F S27x64x64 .f32) (main_arg2 : FVec F S64 .f32) (main_arg3 : FVec F S64 .f32) (main_arg4 : FVec F S64 .f32) (main_arg5 : IVec S27x100000 32) (main_arg6 : IVec S27x100000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S27x64x64 .f32 := Host.absf main_arg1
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S200000x64 : Shape := ⟨2, ![200000, 64]⟩
abbrev S27x64x64 : Shape := ⟨3, ![27, 64, 64]⟩
abbrev S64 : Shape := ⟨1, ![64]⟩
abbrev S27x100000 : Shape := ⟨2, ![27, 100000]⟩
abbrev S_ : Shape := ⟨0, ![]⟩
abbrev S27x100000x1 : Shape := ⟨3, ![27, 100000, 1]⟩
abbrev S27x100000x64 : Shape := ⟨3, ![27, 100000, 64]⟩
abbrev S1x20000x64 : Shape := ⟨3, ![1, 20000, 64]⟩
abbrev S1x64x64 : Shape := ⟨3, ![1, 64, 64]⟩
abbrev S20000x64 : Shape := ⟨2, ![20000, 64]⟩
abbrev S64x64 : Shape := ⟨2, ![64, 64]⟩
abbrev S2700000 : Shape := ⟨1, ![2700000]⟩
abbrev S2700000x64 : Shape := ⟨2, ![2700000, 64]⟩
abbrev S2700000x1 : Shape := ⟨2, ![2700000, 1]⟩
abbrev S1x64 : Shape := ⟨2, ![1, 64]⟩
abbrev S10000x64 : Shape := ⟨2, ![10000, 64]⟩

abbrev nBuf : Space → Nat
  | .hbm => 46
  | .vmem => 20
  | .smem => 0
  | _ => 0

abbrev bufTy : (tb : Table) → Fin (tcTables nBuf tb) → BufTy
  | .hbm, ⟨0, _⟩ => ⟨S200000x64, .f32⟩
  | .hbm, ⟨1, _⟩ => ⟨S27x64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S27x100000, .i32⟩
  | .hbm, ⟨6, _⟩ => ⟨S27x100000, .i32⟩
  | .hbm, ⟨7, _⟩ => ⟨S200000x64, .bf16⟩
  | .hbm, ⟨8, _⟩ => ⟨S27x64x64, .bf16⟩
  | .hbm, ⟨9, _⟩ => ⟨S_, .i32⟩
  | .hbm, ⟨10, _⟩ => ⟨S27x100000, .i32⟩
  | .hbm, ⟨11, _⟩ => ⟨S27x100000, .i1⟩
  | .hbm, ⟨12, _⟩ => ⟨S_, .i32⟩
  | .hbm, ⟨13, _⟩ => ⟨S27x100000, .i32⟩
  | .hbm, ⟨14, _⟩ => ⟨S27x100000, .i32⟩
  | .hbm, ⟨15, _⟩ => ⟨S27x100000, .i32⟩
  | .hbm, ⟨16, _⟩ => ⟨S27x100000x1, .i32⟩
  | .hbm, ⟨17, _⟩ => ⟨S27x100000x64, .bf16⟩
  | .hbm, ⟨18, _⟩ => ⟨S27x100000x64, .f32⟩
  | .hbm, ⟨19, _⟩ => ⟨S_, .f32⟩
  | .hbm, ⟨20, _⟩ => ⟨S200000x64, .f32⟩
  | .hbm, ⟨21, _⟩ => ⟨S2700000, .i32⟩
  | .hbm, ⟨22, _⟩ => ⟨S2700000x64, .f32⟩
  | .hbm, ⟨23, _⟩ => ⟨S_, .i32⟩
  | .hbm, ⟨24, _⟩ => ⟨S2700000, .i32⟩
  | .hbm, ⟨25, _⟩ => ⟨S2700000, .i1⟩
  | .hbm, ⟨26, _⟩ => ⟨S_, .i32⟩
  | .hbm, ⟨27, _⟩ => ⟨S2700000, .i32⟩
  | .hbm, ⟨28, _⟩ => ⟨S2700000, .i32⟩
  | .hbm, ⟨29, _⟩ => ⟨S2700000, .i32⟩
  | .hbm, ⟨30, _⟩ => ⟨S2700000x1, .i32⟩
  | .hbm, ⟨31, _⟩ => ⟨S200000x64, .f32⟩
  | .hbm, ⟨32, _⟩ => ⟨S1x64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S_, .f32⟩
  | .hbm, ⟨38, _⟩ => ⟨S1x64, .f32⟩
  | .hbm, ⟨39, _⟩ => ⟨S1x64, .f32⟩
  | .hbm, ⟨40, _⟩ => ⟨S_, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S200000x64, .f32⟩
  | .local _ .vmem, ⟨0, _⟩ => ⟨S1x20000x64, .bf16⟩
  | .local _ .vmem, ⟨1, _⟩ => ⟨S1x20000x64, .bf16⟩
  | .local _ .vmem, ⟨2, _⟩ => ⟨S1x64x64, .bf16⟩
  | .local _ .vmem, ⟨3, _⟩ => ⟨S1x64x64, .bf16⟩
  | .local _ .vmem, ⟨4, _⟩ => ⟨S1x20000x64, .f32⟩
  | .local _ .vmem, ⟨5, _⟩ => ⟨S1x20000x64, .f32⟩
  | .local _ .vmem, ⟨6, _⟩ => ⟨S10000x64, .f32⟩
  | .local _ .vmem, ⟨7, _⟩ => ⟨S10000x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := ⟨2, ![27, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x20000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bitsLt_bf16_f32 : FTy.bits .bf16 < FTy.bits .f32
  bcast_S_S27x100000 : S_.BroadcastsInDim S27x100000 (![] : Fin 0 → Fin S27x100000.rank)
  bcast_S27x100000_S27x100000x1_0_1 : S27x100000.BroadcastsInDim S27x100000x1 (![0, 1] : Fin 2 → Fin S27x100000x1.rank)
  inb_S1x20000x64_S1x20000x64_0_0_0 : ∀ a, (![0, 0, 0] : Fin 3 → Nat) a + S1x20000x64.size a ≤ S1x20000x64.size a
  h_S1x20000x64 : 0 < S1x20000x64.numel
  shapeCasts_S1x20000x64_S20000x64 : S1x20000x64.ShapeCasts S20000x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S20000x64_S1x20000x64 : S20000x64.ShapeCasts S1x20000x64
  bcast_S_S200000x64 : S_.BroadcastsInDim S200000x64 (![] : Fin 0 → Fin S200000x64.rank)
  shapeCasts_S27x100000_S2700000 : S27x100000.ShapeCasts S2700000
  shapeCasts_S27x100000x64_S2700000x64 : S27x100000x64.ShapeCasts S2700000x64
  bcast_S_S2700000 : S_.BroadcastsInDim S2700000 (![] : Fin 0 → Fin S2700000.rank)
  bcast_S2700000_S2700000x1_0 : S2700000.BroadcastsInDim S2700000x1 (![0] : Fin 1 → Fin S2700000x1.rank)
  shapeCasts_S64_S1x64 : S64.ShapeCasts S1x64
  inb_S1x64_S1x64_0_0 : ∀ a, (![0, 0] : Fin 2 → Nat) a + S1x64.size a ≤ S1x64.size a
  h_S1x64 : 0 < S1x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  shapeCasts_S1x64_S1x64 : S1x64.ShapeCasts S1x64
  broadcasts_S1x64_S10000x64 : S1x64.Broadcasts S10000x64
  reduces_S10000x64_S64 : S10000x64.Reduces [0] S64
  bcast_S_S1x64 : S_.BroadcastsInDim S1x64 (![] : Fin 0 → Fin S1x64.rank)
  gather_S200000x64_S27x100000x1_S27x100000x64_2_0_n_n_0_2_164_wf : GatherDims.WF S200000x64 S27x100000x1 S27x100000x64 [2] [0] [] [0] [] 2 ![1, 64]
  dot_S20000x64_S64x64_S20000x64_1_0_0_1_n_n_wf : DotDims.WF S20000x64 S64x64 S20000x64 [1] [0] [0] [1] [] []
  scatter_S200000x64_S2700000x1_S2700000x64_1_0_0_1_wf : ScatterDims.WF S200000x64 S2700000x1 S2700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x20000x64.size a ≤ S27x100000x64.size a
  hwx0_0 : ∀ i : grid0.Coords, EltTy.bits .bf16 = 32 ∨ (Rect.block (s := S27x100000x64) S1x20000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S27x64x64.size a
  hwx0_1 : ∀ i : grid0.Coords, EltTy.bits .bf16 = 32 ∨ (Rect.block (s := S27x64x64) S1x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x20000x64.size a ≤ S27x100000x64.size a
  hwx0_2 : ∀ i : grid0.Coords, EltTy.bits .f32 = 32 ∨ (Rect.block (s := S27x100000x64) S1x20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S200000x64.size a
  hwx1_0 : ∀ i : grid1.Coords, EltTy.bits .f32 = 32 ∨ (Rect.block (s := S200000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S200000x64.size a
  hwx2_0 : ∀ i : grid2.Coords, EltTy.bits .f32 = 32 ∨ (Rect.block (s := S200000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S200000x64.size a
  hwx2_6 : ∀ i : grid2.Coords, EltTy.bits .f32 = 32 ∨ (Rect.block (s := S200000x64) S10000x64.size (cc2_transform_6 i) (hinb2_6 i)).WholeWords (EltTy.packing .f32)

variable [Facts₀]

def gather_S200000x64_S27x100000x1_S27x100000x64_2_0_n_n_0_2_164 : GatherDims S200000x64 S27x100000x1 S27x100000x64 where
  offsetDims := [2]
  collapsedSliceDims := [0]
  operandBatchingDims := []
  startIndicesBatchingDims := []
  startIndexMap := [0]
  indexVectorDim := 2
  sliceSizes := ![1, 64]
  wf := gather_S200000x64_S27x100000x1_S27x100000x64_2_0_n_n_0_2_164_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def scatter_S200000x64_S2700000x1_S2700000x64_1_0_0_1 : ScatterDims S200000x64 S2700000x1 S2700000x64 where
  updateWindowDims := [1]
  insertedWindowDims := [0]
  scatterDimsToOperandDims := [0]
  indexVectorDim := 1
  wf := scatter_S200000x64_S2700000x1_S2700000x64_1_0_0_1_wf

abbrev win0_0 : Pipeline.Window sig grid0 :=
  Pipeline.Window.ofSpec (Memref.whole main_v8) S1x20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23_0) S1x64.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23_1) S1x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v19) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v22) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v30) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S200000x64 : Shape := ⟨2, ![200000, 64]⟩
abbrev S27x64x64 : Shape := ⟨3, ![27, 64, 64]⟩
abbrev S64 : Shape := ⟨1, ![64]⟩
abbrev S27x100000 : Shape := ⟨2, ![27, 100000]⟩
abbrev S_ : Shape := ⟨0, ![]⟩
abbrev S27x100000x1 : Shape := ⟨3, ![27, 100000, 1]⟩
abbrev S27x100000x64 : Shape := ⟨3, ![27, 100000, 64]⟩
abbrev S2700000 : Shape := ⟨1, ![2700000]⟩
abbrev S2700000x64 : Shape := ⟨2, ![2700000, 64]⟩
abbrev S2700000x1 : Shape := ⟨2, ![2700000, 1]⟩
abbrev S1x64 : Shape := ⟨2, ![1, 64]⟩

abbrev nBuf : Space → Nat
  | .hbm => 66
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S27x64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S27x100000, .i32⟩
  | .hbm, ⟨6, _⟩ => ⟨S27x100000, .i32⟩
  | .hbm, ⟨7, _⟩ => ⟨S_, .i32⟩
  | .hbm, ⟨8, _⟩ => ⟨S27x100000, .i32⟩
  | .hbm, ⟨9, _⟩ => ⟨S27x100000, .i1⟩
  | .hbm, ⟨10, _⟩ => ⟨S_, .i32⟩
  | .hbm, ⟨11, _⟩ => ⟨S27x100000, .i32⟩
  | .hbm, ⟨12, _⟩ => ⟨S27x100000, .i32⟩
  | .hbm, ⟨13, _⟩ => ⟨S27x100000, .i32⟩
  | .hbm, ⟨14, _⟩ => ⟨S27x100000x1, .i32⟩
  | .hbm, ⟨15, _⟩ => ⟨S27x100000x64, .f32⟩
  | .hbm, ⟨16, _⟩ => ⟨S27x100000x64, .f32⟩
  | .hbm, ⟨17, _⟩ => ⟨S_, .f32⟩
  | .hbm, ⟨18, _⟩ => ⟨S200000x64, .f32⟩
  | .hbm, ⟨19, _⟩ => ⟨S2700000, .i32⟩
  | .hbm, ⟨20, _⟩ => ⟨S2700000x64, .f32⟩
  | .hbm, ⟨21, _⟩ => ⟨S_, .i32⟩
  | .hbm, ⟨22, _⟩ => ⟨S2700000, .i32⟩
  | .hbm, ⟨23, _⟩ => ⟨S2700000, .i1⟩
  | .hbm, ⟨24, _⟩ => ⟨S_, .i32⟩
  | .hbm, ⟨25, _⟩ => ⟨S2700000, .i32⟩
  | .hbm, ⟨26, _⟩ => ⟨S2700000, .i32⟩
  | .hbm, ⟨27, _⟩ => ⟨S2700000, .i32⟩
  | .hbm, ⟨28, _⟩ => ⟨S2700000x1, .i32⟩
  | .hbm, ⟨29, _⟩ => ⟨S200000x64, .f32⟩
  | .hbm, ⟨30, _⟩ => ⟨S1x64, .f32⟩
  | .hbm, ⟨31, _⟩ => ⟨S200000x64, .f32⟩
  | .hbm, ⟨32, _⟩ => ⟨S200000x64, .f32⟩
  | .hbm, ⟨33, _⟩ => ⟨S_, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S1x64, .f32⟩
  | .hbm, ⟨39, _⟩ => ⟨S200000x64, .f32⟩
  | .hbm, ⟨40, _⟩ => ⟨S200000x64, .f32⟩
  | .hbm, ⟨41, _⟩ => ⟨S200000x64, .f32⟩
  | .hbm, ⟨42, _⟩ => ⟨S_, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S1x64, .f32⟩
  | .hbm, ⟨48, _⟩ => ⟨S200000x64, .f32⟩
  | .hbm, ⟨49, _⟩ => ⟨S200000x64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S1x64, .f32⟩
  | .hbm, ⟨55, _⟩ => ⟨S200000x64, .f32⟩
  | .hbm, ⟨56, _⟩ => ⟨S200000x64, .f32⟩
  | .hbm, ⟨57, _⟩ => ⟨S1x64, .f32⟩
  | .hbm, ⟨58, _⟩ => ⟨S200000x64, .f32⟩
  | .hbm, ⟨59, _⟩ => ⟨S200000x64, .f32⟩
  | .hbm, ⟨60, _⟩ => ⟨S1x64, .f32⟩
  | .hbm, ⟨61, _⟩ => ⟨S200000x64, .f32⟩
  | .hbm, ⟨62, _⟩ => ⟨S200000x64, .f32⟩
  | .hbm, ⟨63, _⟩ => ⟨S_, .f32⟩
  | .hbm, ⟨64, _⟩ => ⟨S200000x64, .f32⟩
  | .hbm, ⟨65, _⟩ => ⟨S200000x64, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]

class Facts₀ : Prop where
  bcast_S_S27x100000 : S_.BroadcastsInDim S27x100000 (![] : Fin 0 → Fin S27x100000.rank)
  bcast_S27x100000_S27x100000x1_0_1 : S27x100000.BroadcastsInDim S27x100000x1 (![0, 1] : Fin 2 → Fin S27x100000x1.rank)
  bcast_S_S200000x64 : S_.BroadcastsInDim S200000x64 (![] : Fin 0 → Fin S200000x64.rank)
  shapeCasts_S27x100000_S2700000 : S27x100000.ShapeCasts S2700000
  shapeCasts_S27x100000x64_S2700000x64 : S27x100000x64.ShapeCasts S2700000x64
  bcast_S_S2700000 : S_.BroadcastsInDim S2700000 (![] : Fin 0 → Fin S2700000.rank)
  bcast_S2700000_S2700000x1_0 : S2700000.BroadcastsInDim S2700000x1 (![0] : Fin 1 → Fin S2700000x1.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  reducesTo_S200000x64_S64_d0 : S200000x64.ReducesTo [0] S64
  h_S_ : 0 < S_.numel
  bcast_S_S64 : S_.BroadcastsInDim S64 (![] : Fin 0 → Fin S64.rank)
  gather_S200000x64_S27x100000x1_S27x100000x64_2_0_n_n_0_2_164_wf : GatherDims.WF S200000x64 S27x100000x1 S27x100000x64 [2] [0] [] [0] [] 2 ![1, 64]
  dot_S27x100000x64_S27x64x64_S27x100000x64_2_1_1_2_0_0_wf : DotDims.WF S27x100000x64 S27x64x64 S27x100000x64 [2] [1] [1] [2] [0] [0]
  scatter_S200000x64_S2700000x1_S2700000x64_1_0_0_1_wf : ScatterDims.WF S200000x64 S2700000x1 S2700000x64 [1] [0] [0] 1

variable [Facts₀]

def gather_S200000x64_S27x100000x1_S27x100000x64_2_0_n_n_0_2_164 : GatherDims S200000x64 S27x100000x1 S27x100000x64 where
  offsetDims := [2]
  collapsedSliceDims := [0]
  operandBatchingDims := []
  startIndicesBatchingDims := []
  startIndexMap := [0]
  indexVectorDim := 2
  sliceSizes := ![1, 64]
  wf := gather_S200000x64_S27x100000x1_S27x100000x64_2_0_n_n_0_2_164_wf
def dot_S27x100000x64_S27x64x64_S27x100000x64_2_1_1_2_0_0 : DotDims S27x100000x64 S27x64x64 S27x100000x64 where
  lhsContracting := [2]
  rhsContracting := [1]
  lhsNonContracting := [1]
  rhsNonContracting := [2]
  lhsBatch := [0]
  rhsBatch := [0]
  wf := dot_S27x100000x64_S27x64x64_S27x100000x64_2_1_1_2_0_0_wf
def scatter_S200000x64_S2700000x1_S2700000x64_1_0_0_1 : ScatterDims S200000x64 S2700000x1 S2700000x64 where
  updateWindowDims := [1]
  insertedWindowDims := [0]
  scatterDimsToOperandDims := [0]
  indexVectorDim := 1
  wf := scatter_S200000x64_S2700000x1_S2700000x64_1_0_0_1_wf

class Facts : Prop extends Facts₀ where

variable [Facts]
-- ==== Proof.HostReads.lean ====
/-
  What the kernel program's buffers hold where each of its three regions is entered, in terms of what the region before
  left and of the launch memory: the gathered rows and the weights at the first region; the scattered accumulator and the
  bias, scale and shift rows at the second; the same and the mean and variance rows at the third. Each is the host
  operations between the regions applied to the contents before them; a buffer no operation writes keeps its contents.
-/
import proofs.«109595_j56392920596826_1_alg».proof.Proof.Gen.KernelIdeal.Frame
import Idealize.ShloMosaic.Lib.Pipeline.Value
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.HostReads

open Cert.KernelIdeal Cert.KernelIdeal.Gen

variable {F : FTy → Type} [FloatOps F]
variable (m : (ℓ : Loc nD τ sig) → Buf (Elt F) ℓ) (ρ : Dev nD → PrngReg)

/-- The gather's start indices: a negative index counts from the table's end. -/
abbrev gidx (a5 : (⟨S27x100000, .i32⟩ : BufTy).Contents (Elt F)) : (⟨S27x100000x1, .i32⟩ : BufTy).Contents (Elt F) :=
  broadcastInDim S27x100000x1 ![0, 1] bcast_S27x100000_S27x100000x1_0_1
    (select (cmpi .slt a5 (broadcastInDim S27x100000 ![] bcast_S_S27x100000 (constantI S_ 32 0#32)))
      (addi a5 (broadcastInDim S27x100000 ![] bcast_S_S27x100000 (constantI S_ 32 200000#32))) a5)

/-- The scatter's start indices, flattened over offsets and pairs: a negative index counts from the table's end. -/
abbrev sidx (a6 : (⟨S27x100000, .i32⟩ : BufTy).Contents (Elt F)) : (⟨S2700000x1, .i32⟩ : BufTy).Contents (Elt F) :=
  broadcastInDim S2700000x1 ![0] bcast_S2700000_S2700000x1_0
    (select (cmpi .slt (shapeCast _ a6 shapeCasts_S27x100000_S2700000) (broadcastInDim S2700000 ![] bcast_S_S2700000 (constantI S_ 32 0#32)))
      (addi (shapeCast _ a6 shapeCasts_S27x100000_S2700000) (broadcastInDim S2700000 ![] bcast_S_S2700000 (constantI S_ 32 200000#32)))
      (shapeCast _ a6 shapeCasts_S27x100000_S2700000))

/-- The voxel count as a row. -/
abbrev nrow : (⟨S1x64, .f32⟩ : BufTy).Contents (Elt F) := broadcastInDim S1x64 ![] bcast_S_S1x64 (constant S_ .f32 0x48435000#32)

/-! ## The first region's entry -/

theorem W1_v8 (c : Dev nD) : W1 m ρ c (Proc.devRef .tc main_v8)
    = Host.gather gather_S200000x64_S27x100000x1_S27x100000x64_2_0_n_n_0_2_164
        (truncf .bf16 (m ((c : Thread nD τ).loc main_arg0)) bitsLt_bf16_f32) (gidx (m ((c : Thread nD τ).loc main_arg5))) := by
  show StableHlo.after hostOps0 (W0 m ρ c) (Proc.devRef .tc main_v8) = _
  after_results

theorem W1_v1 (c : Dev nD) : W1 m ρ c (Proc.devRef .tc main_v1)
    = (truncf .bf16 (m ((c : Thread nD τ).loc main_arg1)) bitsLt_bf16_f32 : (⟨S27x64x64, .bf16⟩ : BufTy).Contents (Elt F)) := by
  show StableHlo.after hostOps0 (W0 m ρ c) (Proc.devRef .tc main_v1) = _
  after_results

/-! ## The first region's exit: the arguments the later operations read are as launched -/

theorem W1_arg (c : Dev nD) (b : Ref sig .tc) (hb : ∀ op ∈ (hostOps0 : List (HloOp τ sig (Elt F))), Proc.devRef .tc b ∉ op.writes) :
    W1 m ρ c (Proc.devRef .tc b) = m ((c : Thread nD τ).loc b) :=
  StableHlo.after_of_forall_not_mem _ _ hb

theorem W2_arg6 (c : Dev nD) : W2 m ρ c (Proc.devRef .tc main_arg6) = m ((c : Thread nD τ).loc main_arg6) :=
  (W2_of_ne m ρ c main_arg6 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W2_arg2 (c : Dev nD) : W2 m ρ c (Proc.devRef .tc main_arg2) = m ((c : Thread nD τ).loc main_arg2) :=
  (W2_of_ne m ρ c main_arg2 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W2_arg3 (c : Dev nD) : W2 m ρ c (Proc.devRef .tc main_arg3) = m ((c : Thread nD τ).loc main_arg3) :=
  (W2_of_ne m ρ c main_arg3 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W2_arg4 (c : Dev nD) : W2 m ρ c (Proc.devRef .tc main_arg4) = m ((c : Thread nD τ).loc main_arg4) :=
  (W2_of_ne m ρ c main_arg4 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W2_v9 (c : Dev nD) : W2 m ρ c (Proc.devRef .tc main_v9) = (dat0 (V1 m ρ) c).arrAt 2 cfg0.N := W2_arr m ρ c 2

/-! ## The second region's entry -/

theorem W3_v19 (c : Dev nD) : W3 m ρ c (Proc.devRef .tc main_v19)
    = Host.scatterAdd scatter_S200000x64_S2700000x1_S2700000x64_1_0_0_1
        (broadcastInDim S200000x64 ![] bcast_S_S200000x64 (constant S_ .f32 0x00000000#32))
        (sidx (m ((c : Thread nD τ).loc main_arg6)))
        (shapeCast _ ((dat0 (V1 m ρ) c).arrAt 2 cfg0.N) shapeCasts_S27x100000x64_S2700000x64) := by
  rw [← W2_v9 m ρ c, ← W2_arg6 m ρ c]
  show StableHlo.after hostOps1 (W2 m ρ c) (Proc.devRef .tc main_v19) = _
  after_results
  rfl

theorem W3_v20 (c : Dev nD) : W3 m ρ c (Proc.devRef .tc main_v20)
    = shapeCast _ (m ((c : Thread nD τ).loc main_arg2)) shapeCasts_S64_S1x64 := by
  rw [← W2_arg2 m ρ c]
  show StableHlo.after hostOps1 (W2 m ρ c) (Proc.devRef .tc main_v20) = _
  after_results
  rfl

theorem W3_v21 (c : Dev nD) : W3 m ρ c (Proc.devRef .tc main_v21)
    = shapeCast _ (m ((c : Thread nD τ).loc main_arg3)) shapeCasts_S64_S1x64 := by
  rw [← W2_arg3 m ρ c]
  show StableHlo.after hostOps1 (W2 m ρ c) (Proc.devRef .tc main_v21) = _
  after_results
  rfl

theorem W3_v22 (c : Dev nD) : W3 m ρ c (Proc.devRef .tc main_v22)
    = shapeCast _ (m ((c : Thread nD τ).loc main_arg4)) shapeCasts_S64_S1x64 := by
  rw [← W2_arg4 m ρ c]
  show StableHlo.after hostOps1 (W2 m ρ c) (Proc.devRef .tc main_v22) = _
  after_results
  rfl

/-! ## The second region's exit -/

theorem W4_v19 (c : Dev nD) : W4 m ρ c (Proc.devRef .tc main_v19) = W3 m ρ c (Proc.devRef .tc main_v19) :=
  (W4_arr m ρ c 0).trans (((dat1 (V3 m ρ) c).arrAt_in 0 rfl _).trans (A_eq1 (V3 m ρ) c 0))

theorem W4_v20 (c : Dev nD) : W4 m ρ c (Proc.devRef .tc main_v20) = W3 m ρ c (Proc.devRef .tc main_v20) :=
  (W4_arr m ρ c 1).trans (((dat1 (V3 m ρ) c).arrAt_in 1 rfl _).trans (A_eq1 (V3 m ρ) c 1))

theorem W4_v21 (c : Dev nD) : W4 m ρ c (Proc.devRef .tc main_v21) = W3 m ρ c (Proc.devRef .tc main_v21) :=
  W4_of_ne m ρ c main_v21 (by decide)

theorem W4_v22 (c : Dev nD) : W4 m ρ c (Proc.devRef .tc main_v22) = W3 m ρ c (Proc.devRef .tc main_v22) :=
  W4_of_ne m ρ c main_v22 (by decide)

theorem W4_v23_0 (c : Dev nD) : W4 m ρ c (Proc.devRef .tc main_v23_0) = (dat1 (V3 m ρ) c).arrAt 2 cfg1.N := W4_arr m ρ c 2

theorem W4_v23_1 (c : Dev nD) : W4 m ρ c (Proc.devRef .tc main_v23_1) = (dat1 (V3 m ρ) c).arrAt 3 cfg1.N := W4_arr m ρ c 3

/-! ## The third region's entry -/

theorem W5_v19 (c : Dev nD) : W5 m ρ c (Proc.devRef .tc main_v19) = W3 m ρ c (Proc.devRef .tc main_v19) :=
  (StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_v19 m ρ c)

theorem W5_v20 (c : Dev nD) : W5 m ρ c (Proc.devRef .tc main_v20) = W3 m ρ c (Proc.devRef .tc main_v20) :=
  (StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_v20 m ρ c)

theorem W5_v21 (c : Dev nD) : W5 m ρ c (Proc.devRef .tc main_v21) = W3 m ρ c (Proc.devRef .tc main_v21) :=
  (StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_v21 m ρ c)

theorem W5_v22 (c : Dev nD) : W5 m ρ c (Proc.devRef .tc main_v22) = W3 m ρ c (Proc.devRef .tc main_v22) :=
  (StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_v22 m ρ c)

theorem W5_v25 (c : Dev nD) : W5 m ρ c (Proc.devRef .tc main_v25)
    = Host.divf ((dat1 (V3 m ρ) c).arrAt 2 cfg1.N) (nrow (F := F)) := by
  rw [← W4_v23_0 m ρ c]
  show StableHlo.after hostOps2 (W4 m ρ c) (Proc.devRef .tc main_v25) = _
  after_results

theorem W5_v29 (c : Dev nD) : W5 m ρ c (Proc.devRef .tc main_v29)
    = subf (Host.divf ((dat1 (V3 m ρ) c).arrAt 3 cfg1.N) (nrow (F := F)))
        (mulf (Host.divf ((dat1 (V3 m ρ) c).arrAt 2 cfg1.N) (nrow (F := F))) (Host.divf ((dat1 (V3 m ρ) c).arrAt 2 cfg1.N) (nrow (F := F)))) := by
  rw [← W4_v23_0 m ρ c, ← W4_v23_1 m ρ c]
  show StableHlo.after hostOps2 (W4 m ρ c) (Proc.devRef .tc main_v29) = _
  after_results

/-! ## The last region's exit -/

theorem W6_v30 (c : Dev nD) : W6 m ρ c (Proc.devRef .tc main_v30) = (dat2 (V5 m ρ) c).arrAt 6 cfg2.N := W6_arr m ρ c 6

end Cert.KernelIdeal.HostReads

end
-- ==== Proof.ConvBnSpec.lean ====
/-
  A sparse convolution block over the extended reals, as plain functions of arrays.

  For every kernel offset k and rulebook pair p a gathered feature row g[k, p, ·] is multiplied by that offset's
  weight matrix w[k, ·, ·]; the products are scattered into a zero accumulator a[voxel, channel]; a bias row is added;
  and each channel is normalised by its own mean and variance over the 200000 voxels, scaled, shifted and clamped below
  at zero. The scatter itself is a parameter here: what this file fixes is the product before it and the statistics
  and normalisation after it.

  * rowOf: a channel vector as a one-row matrix;
  * gemm: the per-offset product, element (k, p, d) the sum over e of g[k, p, e] · w[k, e, d];
  * colSum, colSumSq: per channel, the sum over the voxels of (a + bias) and of its square;
  * mean, var: the sums divided by the voxel count, the variance as mean of squares minus squared mean;
  * normalize: ((a + bias − mean) · (var + ε)^(-1/2)) · γ + β, clamped below at zero;
  * result: normalize at that mean and variance.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.ConvBn

/-- The accumulator's shape: voxels by channels. -/
abbrev SAcc : Shape := ⟨2, ![200000, 64]⟩
/-- The partial products' shape: offsets by pairs by channels. -/
abbrev SPart : Shape := ⟨3, ![27, 100000, 64]⟩
/-- The weights' shape: offsets by input channels by output channels. -/
abbrev SWt : Shape := ⟨3, ![27, 64, 64]⟩
/-- A row of per-channel values. -/
abbrev SRow : Shape := ⟨2, ![1, 64]⟩

/-- A vector of per-channel values laid out as a one-row matrix. -/
def rowOf (x : (⟨1, ![64]⟩ : Shape).Idx → EReal) : SRow.Idx → EReal := fun j => x (ix1 (j 1))

theorem rowOf_apply (x : (⟨1, ![64]⟩ : Shape).Idx → EReal) (q : Fin 64) : rowOf x (ix2 0 q) = x (ix1 q) := rfl

/-- The per-offset product at offset k, pair p, output channel d. -/
def gemm (g : SPart.Idx → EReal) (w : SWt.Idx → EReal) : SPart.Idx → EReal :=
  fun i => ∑ e : Fin 64, g (ix3 (i 0) (i 1) e) * w (ix3 (i 0) e (i 2))

theorem gemm_apply (g : SPart.Idx → EReal) (w : SWt.Idx → EReal) (k : Fin 27) (p : Fin 100000) (d : Fin 64) :
    gemm g w (ix3 k p d) = ∑ e : Fin 64, g (ix3 k p e) * w (ix3 k e d) := rfl

/-- The voxel count as the float the programs divide by. -/
def nvox : EReal := Ideal.ofBits .f32 0x48435000#32
/-- The variance's guard as the float the programs add. -/
def eps : EReal := Ideal.ofBits .f32 0x3727C5AC#32

/-- Per channel, the sum over the voxels of the biased accumulator. -/
def colSum (a : SAcc.Idx → EReal) (b : SRow.Idx → EReal) : SRow.Idx → EReal :=
  fun j => ∑ r : Fin 200000, (a (ix2 r (j 1)) + b (ix2 0 (j 1)))

/-- Per channel, the sum over the voxels of the biased accumulator's square. -/
def colSumSq (a : SAcc.Idx → EReal) (b : SRow.Idx → EReal) : SRow.Idx → EReal :=
  fun j => ∑ r : Fin 200000, (a (ix2 r (j 1)) + b (ix2 0 (j 1))) * (a (ix2 r (j 1)) + b (ix2 0 (j 1)))

theorem colSum_apply (a : SAcc.Idx → EReal) (b : SRow.Idx → EReal) (q : Fin 64) :
    colSum a b (ix2 0 q) = ∑ r : Fin 200000, (a (ix2 r q) + b (ix2 0 q)) := rfl

theorem colSumSq_apply (a : SAcc.Idx → EReal) (b : SRow.Idx → EReal) (q : Fin 64) :
    colSumSq a b (ix2 0 q) = ∑ r : Fin 200000, (a (ix2 r q) + b (ix2 0 q)) * (a (ix2 r q) + b (ix2 0 q)) := rfl

/-- The channel means. -/
def mean (s : SRow.Idx → EReal) : SRow.Idx → EReal := fun j => Ideal.div (s j) nvox

/-- The channel variances from the two sums: mean of squares minus squared mean. -/
def var (s ss : SRow.Idx → EReal) : SRow.Idx → EReal :=
  fun j => Ideal.div (ss j) nvox - Ideal.div (s j) nvox * Ideal.div (s j) nvox

/-- Normalise, scale, shift and clamp. -/
def normalize (a : SAcc.Idx → EReal) (b μ v γ β : SRow.Idx → EReal) : SAcc.Idx → EReal :=
  fun i => max ((((a i + b (ix2 0 (i 1))) - μ (ix2 0 (i 1))) * Ideal.rsqrt (v (ix2 0 (i 1)) + eps)) * γ (ix2 0 (i 1))
    + β (ix2 0 (i 1))) (Ideal.ofBits .f32 0x00000000#32)

theorem normalize_apply (a : SAcc.Idx → EReal) (b μ v γ β : SRow.Idx → EReal) (r : Fin 200000) (q : Fin 64) :
    normalize a b μ v γ β (ix2 r q)
      = max ((((a (ix2 r q) + b (ix2 0 q)) - μ (ix2 0 q)) * Ideal.rsqrt (v (ix2 0 q) + eps)) * γ (ix2 0 q) + β (ix2 0 q))
          (Ideal.ofBits .f32 0x00000000#32) := rfl

/-- The block's result from the accumulator and the three rows. -/
def result (a : SAcc.Idx → EReal) (b γ β : SRow.Idx → EReal) : SAcc.Idx → EReal :=
  normalize a b (mean (colSum a b)) (var (colSum a b) (colSumSq a b)) γ β

end Cert.ConvBn

end
-- ==== Proof.GemmValue.lean ====
/-
  The first kernel region multiplies, for each offset k and each tile of 20000 pairs, the tile's gathered rows by the
  offset's weight matrix. Read over the whole grid of 27 × 5 points, the array it writes holds at (k, p, d) the sum over
  the input channels e of gathered[k, p, e] · weight[k, e, d].
-/
import proofs.«109595_j56392920596826_1_alg».proof.Proof.Gen.KernelIdeal.Frame
import proofs.«109595_j56392920596826_1_alg».proof.Proof.ConvBnSpec
import Idealize.ShloMosaic.Lib.Pipeline.Value
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.GemmValue

open Cert.KernelIdeal Cert.KernelIdeal.Gen

/-! ## The block product at an index -/

/-- The left operand's row coordinate is the output's row. -/
private theorem lhs_axis0 (i : S20000x64.Idx) (q : dot_S20000x64_S64x64_S20000x64_1_0_0_1_n_n.contr.Idx) :
    (dot_S20000x64_S64x64_S20000x64_1_0_0_1_n_n.lhsIdx i q 0).val = (i 0).val := by
  unfold DotDims.lhsIdx
  rw [dif_neg (show ¬(0 : Fin S20000x64.rank) ∈ dot_S20000x64_S64x64_S20000x64_1_0_0_1_n_n.lhsBatch by decide), dif_pos (show (0 : Fin S20000x64.rank) ∈ dot_S20000x64_S64x64_S20000x64_1_0_0_1_n_n.lhsNonContracting by decide)]
  rfl
/-- The left operand's column coordinate is the contraction position. -/
private theorem lhs_axis1 (i : S20000x64.Idx) (q : dot_S20000x64_S64x64_S20000x64_1_0_0_1_n_n.contr.Idx) :
    (dot_S20000x64_S64x64_S20000x64_1_0_0_1_n_n.lhsIdx i q 1).val = (q ⟨0, by decide⟩).val :=
  dot_S20000x64_S64x64_S20000x64_1_0_0_1_n_n.lhsIdx_val_of_single rfl i q
/-- The right operand's row coordinate is the contraction position. -/
private theorem rhs_axis0 (i : S20000x64.Idx) (q : dot_S20000x64_S64x64_S20000x64_1_0_0_1_n_n.contr.Idx) :
    (dot_S20000x64_S64x64_S20000x64_1_0_0_1_n_n.rhsIdx i q 0).val = (q ⟨0, by decide⟩).val :=
  dot_S20000x64_S64x64_S20000x64_1_0_0_1_n_n.rhsIdx_val_of_single rfl i q
/-- The right operand's column coordinate is the output's column. -/
private theorem rhs_axis1 (i : S20000x64.Idx) (q : dot_S20000x64_S64x64_S20000x64_1_0_0_1_n_n.contr.Idx) :
    (dot_S20000x64_S64x64_S20000x64_1_0_0_1_n_n.rhsIdx i q 1).val = (i 1).val := by
  unfold DotDims.rhsIdx
  rw [dif_neg (show ¬(1 : Fin S64x64.rank) ∈ dot_S20000x64_S64x64_S20000x64_1_0_0_1_n_n.rhsBatch by decide), dif_pos (show (1 : Fin S64x64.rank) ∈ dot_S20000x64_S64x64_S20000x64_1_0_0_1_n_n.rhsNonContracting by decide)]
  rfl

/-- The matrix product into the zero accumulator, at row r and column d: the sum over the 64 inner positions. -/
private theorem matmul_at (y0 : FVec Ideal S20000x64 .bf16) (y1 : FVec Ideal S64x64 .bf16) (r : Fin 20000) (d : Fin 64) :
    matmul dot_S20000x64_S64x64_S20000x64_1_0_0_1_n_n none y0 y1 (constant (F := Ideal) S20000x64 .f32 0x00000000#32) (ix2 r d)
      = ∑ e : Fin 64, y0 (ix2 r e) * y1 (ix2 e d) := by
  simp only [matmul]
  rw [Ideal.matmul_constant_zero_apply, ← Equiv.sum_comp (contrEquiv1 dot_S20000x64_S64x64_S20000x64_1_0_0_1_n_n 64 rfl rfl).symm]
  refine Finset.sum_congr rfl fun k _ => ?_
  have hk := contrEquiv1_symm_val dot_S20000x64_S64x64_S20000x64_1_0_0_1_n_n 64 rfl rfl k
  have el : dot_S20000x64_S64x64_S20000x64_1_0_0_1_n_n.lhsIdx (ix2 r d) ((contrEquiv1 dot_S20000x64_S64x64_S20000x64_1_0_0_1_n_n 64 rfl rfl).symm k) = ix2 r k := funext fun a => Fin.ext (by
    match a with
    | ⟨0, _⟩ => exact lhs_axis0 _ _
    | ⟨1, _⟩ => exact (lhs_axis1 _ _).trans hk)
  have er : dot_S20000x64_S64x64_S20000x64_1_0_0_1_n_n.rhsIdx (ix2 r d) ((contrEquiv1 dot_S20000x64_S64x64_S20000x64_1_0_0_1_n_n 64 rfl rfl).symm k) = ix2 k d := funext fun a => Fin.ext (by
    match a with
    | ⟨0, _⟩ => exact (rhs_axis0 _ _).trans hk
    | ⟨1, _⟩ => exact rhs_axis1 _ _)
  rw [el, er]

/-- The body's value at (0, r, d): the tile's row r times the weight matrix's column d. -/
private theorem pay_apply (x0 : Vec Ideal S1x20000x64 .bf16) (x1 : Vec Ideal S1x64x64 .bf16) (r : Fin 20000) (d : Fin 64) :
    k0_pay1 (F := Ideal) x0 x1 (ix3 0 r d) = ∑ e : Fin 64, x0 (ix3 0 r e) * x1 (ix3 0 e d) := by
  unfold k0_pay1
  show shapeCast S1x20000x64 (matmul dot_S20000x64_S64x64_S20000x64_1_0_0_1_n_n none (shapeCast S20000x64 x0 shapeCasts_S1x20000x64_S20000x64) (shapeCast S64x64 x1 shapeCasts_S1x64x64_S64x64) (constant (F := Ideal) S20000x64 .f32 0x00000000#32)) shapeCasts_S20000x64_S1x20000x64 (ix3 0 r d) = _
  refine (shapeCast_addUnit_apply ![20000, 64] _ shapeCasts_S20000x64_S1x20000x64 (ix3 0 r d)).trans ?_
  have hj : (fun a : Fin 2 => (ix3 (0 : Fin 1) r d) a.succ) = ix2 r d := funext fun a => by
    match a with
    | ⟨0, _⟩ => rfl
    | ⟨1, _⟩ => rfl
  refine (congrArg _ hj).trans ?_
  refine (matmul_at _ _ r d).trans ?_
  refine Finset.sum_congr rfl fun e _ => ?_
  have e0 : shapeCast S20000x64 x0 shapeCasts_S1x20000x64_S20000x64 (ix2 r e) = x0 (ix3 0 r e) := by
    refine (shapeCast_dropUnit_apply ![20000, 64] x0 shapeCasts_S1x20000x64_S20000x64 (ix2 r e)).trans ?_
    refine congrArg x0 (funext fun a => ?_)
    match a with
    | ⟨0, _⟩ => rfl
    | ⟨1, _⟩ => rfl
    | ⟨2, _⟩ => rfl
  have e1 : shapeCast S64x64 x1 shapeCasts_S1x64x64_S64x64 (ix2 e d) = x1 (ix3 0 e d) := by
    refine (shapeCast_dropUnit_apply ![64, 64] x1 shapeCasts_S1x64x64_S64x64 (ix2 e d)).trans ?_
    refine congrArg x1 (funext fun a => ?_)
    match a with
    | ⟨0, _⟩ => rfl
    | ⟨1, _⟩ => rfl
    | ⟨2, _⟩ => rfl
  rw [e0, e1]

/-- The body's value over a tile, against the whole arrays: where row (j 1) of the tile is row (i 1) of offset (i 0) of the gathered array and the weight block is offset (i 0)'s matrix, the entry at j is the product's entry at i. -/
private theorem pay_eq_gemm (x0 : Vec Ideal S1x20000x64 .bf16) (x1 : Vec Ideal S1x64x64 .bf16)
    (g : Cert.ConvBn.SPart.Idx → EReal) (w : Cert.ConvBn.SWt.Idx → EReal) (j : S1x20000x64.Idx) (i : Cert.ConvBn.SPart.Idx)
    (h0 : ∀ e : Fin 64, x0 (ix3 0 (j 1) e) = g (ix3 (i 0) (i 1) e))
    (h1 : ∀ e : Fin 64, x1 (ix3 0 e (j 2)) = w (ix3 (i 0) e (i 2))) :
    k0_pay1 (F := Ideal) x0 x1 j = Cert.ConvBn.gemm g w i := by
  have hj : j = ix3 0 (j 1) (j 2) := funext fun a => by
    match a with
    | ⟨0, _⟩ => exact Fin.ext (by have h : (j 0).val < 1 := (j 0).isLt; show (j 0).val = 0; omega)
    | ⟨1, _⟩ => rfl
    | ⟨2, _⟩ => rfl
  refine (congrArg (k0_pay1 (F := Ideal) x0 x1) hj).trans ?_
  refine (pay_apply x0 x1 (j 1) (j 2)).trans ?_
  show _ = ∑ e : Fin 64, g (ix3 (i 0) (i 1) e) * w (ix3 (i 0) e (i 2))
  refine Finset.sum_congr rfl fun e _ => ?_
  rw [h0 e, h1 e]

/-! ## From the tiles to the array -/

variable (V : (c : Dev nD) → (b : Ref sig .tc) → Buf (Elt Ideal) ((c : Thread nD τ).loc b))

private theorem hz : (![0, 0, 0] : Fin 3 → Nat) = fun _ => 0 := funext fun a => by fin_cases a <;> rfl

/-- The block indices over the grid: the gathered rows' tile and the product's tile are tile (t / 5, t % 5, 0), the weights' block is (t / 5, 0, 0). -/
private theorem idx_facts : ∀ t : Fin cfg0.N,
    win0_0.index t (0 : Fin 3) = t.val / 5 ∧ win0_0.index t (1 : Fin 3) = t.val % 5 ∧ win0_0.index t (2 : Fin 3) = 0
    ∧ win0_1.index t (0 : Fin 3) = t.val / 5 ∧ win0_1.index t (1 : Fin 3) = 0 ∧ win0_1.index t (2 : Fin 3) = 0
    ∧ win0_2.index t (0 : Fin 3) = t.val / 5 ∧ win0_2.index t (1 : Fin 3) = t.val % 5 ∧ win0_2.index t (2 : Fin 3) = 0 :=
  (by decide +kernel : ∀ t : Fin grid0.N, _)

/-- What point t writes back is tile t of the per-offset product of the arrays as the region found them. -/
private theorem flushed_eq (c : Dev nD) (t : Fin cfg0.N) :
    (dat0 (F := Ideal) V c).flushed 2 t
      = ((cfg0.win 2).blk t).view.read (Elt Ideal) (Cert.ConvBn.gemm (V c main_v8) (V c main_v1)) := by
  show (cfg0.win 2).cut (grid0.coords t) ((dat0 (F := Ideal) V c).after 2 t) = _
  rw [after0_2]
  unfold out0_2
  rw [View.canon_unit_zero hz]
  simp only [View.ld_unit_zero (S := S1x20000x64) hz, View.ld_unit_zero (S := S1x64x64) hz]
  obtain ⟨a0, a1, a2, b0, b1, b2, c0, c1, c2⟩ := idx_facts t
  funext j
  show k0_pay1 (F := Ideal) (iblk0 V c 0 t) (iblk0 V c 1 t) j = Cert.ConvBn.gemm (V c main_v8) (V c main_v1) (((cfg0.win 2).blk t).view.emb j)
  have hj0 : (j 0).val < 1 := (j 0).isLt
  have hj1 : (j 1).val < 20000 := (j 1).isLt
  have hj2 : (j 2).val < 64 := (j 2).isLt
  refine pay_eq_gemm (iblk0 V c 0 t) (iblk0 V c 1 t) (V c main_v8) (V c main_v1) j (((cfg0.win 2).blk t).view.emb j) (fun e => ?_) (fun e => ?_)
  · show V c main_v8 (((cfg0.win 0).blk t).view.emb (ix3 0 (j 1) e)) = V c main_v8 _
    refine congrArg (V c main_v8) (funext fun a => Fin.ext ?_)
    match a with
    | ⟨0, _⟩ => show win0_0.index t (0 : Fin 3) * 1 + 1 * 0 = win0_2.index t (0 : Fin 3) * 1 + 1 * (j 0).val; omega
    | ⟨1, _⟩ => show win0_0.index t (1 : Fin 3) * 20000 + 1 * (j 1).val = win0_2.index t (1 : Fin 3) * 20000 + 1 * (j 1).val; omega
    | ⟨2, _⟩ => show win0_0.index t (2 : Fin 3) * 64 + 1 * e.val = e.val; omega
  · show V c main_v1 (((cfg0.win 1).blk t).view.emb (ix3 0 e (j 2))) = V c main_v1 _
    refine congrArg (V c main_v1) (funext fun a => Fin.ext ?_)
    match a with
    | ⟨0, _⟩ => show win0_1.index t (0 : Fin 3) * 1 + 1 * 0 = win0_2.index t (0 : Fin 3) * 1 + 1 * (j 0).val; omega
    | ⟨1, _⟩ => show win0_1.index t (1 : Fin 3) * 64 + 1 * e.val = e.val; omega
    | ⟨2, _⟩ => show win0_1.index t (2 : Fin 3) * 64 + 1 * (j 2).val = win0_2.index t (2 : Fin 3) * 64 + 1 * (j 2).val; omega

/-- An index of the product array is in point t's tile iff each coordinate is in the tile's range on its axis. -/
private theorem mem_blk (t : Fin cfg0.N) (i : S27x100000x64.Idx) :
    i ∈ ((cfg0.win 2).blk t).view.set ↔ ∀ a : Fin 3, win0_2.index t a * S1x20000x64.size a ≤ (i a).val ∧ (i a).val < win0_2.index t a * S1x20000x64.size a + S1x20000x64.size a := by
  show i ∈ ((View.whole main_v9).slice (win0_2.rect t)).set ↔ _
  rw [View.set_slice_whole, Rect.mem_set_unit]
  exact Iff.rfl

/-- Every index (k, p, d) of the product array lies in the tile of point 5 k + p / 20000. -/
private theorem cover (i : S27x100000x64.Idx) :
    ∃ t : Fin cfg0.N, (cfg0.win 2).flush t = true ∧ i ∈ ((cfg0.win 2).blk t).view.set := by
  have hi0 : (i 0).val < 27 := (i 0).isLt
  have hi1 : (i 1).val < 100000 := (i 1).isLt
  have hi2 : (i 2).val < 64 := (i 2).isLt
  have hN : cfg0.N = 135 := N_0
  let t : Fin cfg0.N := ⟨(i 0).val * 5 + (i 1).val / 20000, by rw [hN]; omega⟩
  have ht : t.val = (i 0).val * 5 + (i 1).val / 20000 := rfl
  obtain ⟨a0, a1, a2, b0, b1, b2, c0, c1, c2⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 20000 ≤ (i 1).val ∧ (i 1).val < win0_2.index t (1 : Fin 3) * 20000 + 20000; omega
  | ⟨2, _⟩ => show win0_2.index t (2 : Fin 3) * 64 ≤ (i 2).val ∧ (i 2).val < win0_2.index t (2 : Fin 3) * 64 + 64; omega

/-- After the region, the product array is the per-offset product of the gathered rows and the weights as the region found them. -/
theorem arr_eq (c : Dev nD) :
    (dat0 (F := Ideal) V c).arrAt 2 cfg0.N = Cert.ConvBn.gemm (V c main_v8) (V c main_v1) :=
  (dat0 (F := Ideal) V c).arrAt_eq_of_cover 2 (Cert.ConvBn.gemm (V c main_v8) (V c main_v1)) (fun t _ => flushed_eq V c t) (cover)

end Cert.KernelIdeal.GemmValue

end
-- ==== Proof.LibTiledSum.lean ====
/-
  Sums over a range cut into equal tiles, in any commutative additive monoid (the extended reals among them: no
  finiteness is used, only that addition commutes and associates).

  * `tile_lt`: position `b` of tile `a` lies inside `A` tiles of length `B`.
  * `sum_fin_tiles`: a sum over `N = A * B` indices is the sum over the tiles of the sums inside each tile.
  * `sum_range_tiles`: the same for a `Finset.range` sum of a function of the naturals.
  * `sum_sum_fin_tiles`: a double sum over a rectangle `(A * BJ) × (C * BK)` is the sum over the `A × C` tiles of the
    double sums inside each `BJ × BK` tile.
-/
import Mathlib.Algebra.BigOperators.Fin
import Mathlib.Algebra.BigOperators.Group.Finset.Basic
import Mathlib.Logic.Equiv.Fin.Basic
import Mathlib.Tactic.Ring

open scoped BigOperators

namespace TiledSum

/-- Position `b` of tile `a`, among `A` tiles of length `B`, is below `A * B`. -/
theorem tile_lt {A B : ℕ} (a : Fin A) (b : Fin B) : a.val * B + b.val < A * B := by
  have ha := a.isLt
  have hb := b.isLt
  calc a.val * B + b.val < a.val * B + B := by omega
    _ = (a.val + 1) * B := by ring
    _ ≤ A * B := Nat.mul_le_mul_right B (by omega)

/-- A sum over `N = A * B` indices, tile by tile. -/
theorem sum_fin_tiles {M : Type*} [AddCommMonoid M] {N : ℕ} (A B : ℕ) (h : N = A * B) (f : Fin N → M) :
    ∑ j : Fin N, f j = ∑ a : Fin A, ∑ b : Fin B, f ⟨a.val * B + b.val, h ▸ tile_lt a b⟩ := by
  subst h
  rw [← Equiv.sum_comp finProdFinEquiv f, Fintype.sum_prod_type]
  refine Finset.sum_congr rfl fun a _ => Finset.sum_congr rfl fun b _ => congrArg f (Fin.ext ?_)
  show b.val + B * a.val = a.val * B + b.val
  ring

/-- A `Finset.range` sum over `A * B` naturals, tile by tile. -/
theorem sum_range_tiles {M : Type*} [AddCommMonoid M] (A B : ℕ) (g : ℕ → M) :
    ∑ s ∈ Finset.range (A * B), g s = ∑ a : Fin A, ∑ b : Fin B, g (a.val * B + b.val) := by
  rw [Finset.sum_range, sum_fin_tiles A B rfl]

/-- A double sum over an `(A * BJ) × (C * BK)` rectangle: over the `A × C` tiles, then inside each `BJ × BK` tile. -/
theorem sum_sum_fin_tiles {M : Type*} [AddCommMonoid M] {NJ NK : ℕ} (A BJ C BK : ℕ) (hJ : NJ = A * BJ) (hK : NK = C * BK)
    (f : Fin NJ → Fin NK → M) :
    ∑ j : Fin NJ, ∑ k : Fin NK, f j k
      = ∑ a : Fin A, ∑ c : Fin C, ∑ jl : Fin BJ, ∑ kl : Fin BK,
          f ⟨a.val * BJ + jl.val, hJ ▸ tile_lt a jl⟩ ⟨c.val * BK + kl.val, hK ▸ tile_lt c kl⟩ := by
  rw [sum_fin_tiles A BJ hJ]
  refine Finset.sum_congr rfl fun a _ => ?_
  exact (Finset.sum_congr rfl fun jl _ => sum_fin_tiles C BK hK _).trans Finset.sum_comm

end TiledSum
-- ==== Proof.StatsValue.lean ====
/-
  The second kernel region walks the accumulator in 20 tiles of 10000 voxels. At the first tile it clears two rows of
  per-channel totals; at every tile it adds the bias row to the tile, sums the result and its square down the tile's
  voxels, and adds the two sums into the totals. After the last tile the totals are, per channel, the sum over all
  200000 voxels of (accumulator + bias) and of its square.
-/
import proofs.«109595_j56392920596826_1_alg».proof.Proof.Gen.KernelIdeal.Frame
import proofs.«109595_j56392920596826_1_alg».proof.Proof.ConvBnSpec
import proofs.«109595_j56392920596826_1_alg».proof.Proof.LibTiledSum
import Idealize.ShloMosaic.Lib.Pipeline.Value
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.StatsValue

open Cert.KernelIdeal Cert.KernelIdeal.Gen

/-! ## What the body leaves in the two totals rows, case by case -/

section Pieces
variable {F : FTy → Type} [FloatOps F]

theorem hz : (![0, 0] : Fin 2 → Nat) = fun _ => 0 := funext fun a => by fin_cases a <;> rfl

/-- At a later tile the first totals row becomes the old row plus the tile's column sums. -/
theorem out_B_2 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond1_0 i)
    (x0 : Vec F S10000x64 .f32) (x1 xo2 xo3 : Vec F S1x64 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  rw [View.canon_unit_zero hz]
  simp only [View.readAt_eq_ld, h1.read_unread, h2.read_unread, h3.read_unread,
    View.ld_unit_zero (S := S10000x64) hz, View.ld_unit_zero (S := S1x64) hz]

/-- At a later tile the second totals row becomes the old row plus the tile's column sums of squares. -/
theorem out_B_3 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond1_0 i)
    (x0 : Vec F S10000x64 .f32) (x1 xo2 xo3 : Vec F S1x64 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  rw [View.canon_unit_zero hz]
  simp only [View.readAt_eq_ld, h1.read_unread, h2.read_unread, h4.read_unread,
    View.ld_unit_zero (S := S10000x64) hz, View.ld_unit_zero (S := S1x64) hz]

/-- At the first tile the first totals row is cleared, then updated. -/
theorem out_A_2 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond1_0 i)
    (x0 : Vec F S10000x64 .f32) (x1 : Vec F S1x64 .f32) :
    out1_A_2 c i a1 h1 a2 h2 a3 h3 a4 h4 hc x0 x1 = k1_pay4 x0 x1 k1_pay1 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x64) hz, View.readCov_unit_zero (S := S1x64) _ hz]
  simp only [View.readAt_eq_ld, h1.read_unread, h2.read_unread,
    View.ld_unit_zero (S := S10000x64) hz, View.ld_unit_zero (S := S1x64) hz]

/-- At the first tile the second totals row is cleared, then updated. -/
theorem out_A_3 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond1_0 i)
    (x0 : Vec F S10000x64 .f32) (x1 : Vec F S1x64 .f32) :
    out1_A_3 c i a1 h1 a2 h2 a3 h3 a4 h4 hc x0 x1 = k1_pay5 x0 x1 k1_pay2 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x64) hz, View.readCov_unit_zero (S := S1x64) _ hz]
  simp only [View.readAt_eq_ld, h1.read_unread, h2.read_unread,
    View.ld_unit_zero (S := S10000x64) hz, View.ld_unit_zero (S := S1x64) hz]

end Pieces

/-! ## The payloads at an index, over the extended reals -/

section Payload

/-- The column index of a reduced row with the voxel put back is (voxel, column). -/
theorem lift_eq (q : Fin 64) (r : Fin 10000) : reduces_S10000x64_S64.lift (ix1 q) r = ix2 r q := by
  funext a
  match a with
  | ⟨0, _⟩ => exact Fin.ext rfl
  | ⟨1, _⟩ => exact Fin.ext rfl

/-- The cleared row is zero. -/
theorem pay1_apply (q : Fin 64) : (k1_pay1 (F := Ideal)) (ix2 0 q) = 0 := Ideal.ofBits_zero_f32

/-- The cleared row is zero. -/
theorem pay2_apply (q : Fin 64) : (k1_pay2 (F := Ideal)) (ix2 0 q) = 0 := Ideal.ofBits_zero_f32

/-- The biased tile at (voxel, channel): the tile's element plus the channel's bias. -/
theorem pay3_apply (x0 : Vec Ideal S10000x64 .f32) (x1 : Vec Ideal S1x64 .f32) (r : Fin 10000) (q : Fin 64) :
    k1_pay3 x0 x1 (ix2 r q) = x0 (ix2 r q) + x1 (ix2 0 q) := by
  unfold k1_pay3
  rw [shapeCast_self, shapeCast_self, addf_apply, broadcastTo_1b_ab_apply]

/-- The updated first totals row at a channel: the old total plus the sum down the tile of the biased elements. -/
theorem pay4_apply (x0 : Vec Ideal S10000x64 .f32) (x1 xo : Vec Ideal S1x64 .f32) (q : Fin 64) :
    k1_pay4 x0 x1 xo (ix2 0 q) = xo (ix2 0 q) + ∑ r : Fin 10000, (x0 (ix2 r q) + x1 (ix2 0 q)) := by
  unfold k1_pay4
  rw [addf_apply, shapeCast_self, shapeCast_a_1a_apply]
  refine congrArg (xo (ix2 0 q) + ·) ?_
  refine (Ideal.multiReduction_add_single (k1_pay3 x0 x1) 0x00000000#32 reduces_S10000x64_S64 (.inl rfl) rfl (ix1 q)).trans ?_
  exact Finset.sum_congr rfl fun r _ => (congrArg (k1_pay3 x0 x1) (lift_eq q r)).trans (pay3_apply x0 x1 r q)

/-- The updated second totals row at a channel: the old total plus the sum down the tile of the squared biased elements. -/
theorem pay5_apply (x0 : Vec Ideal S10000x64 .f32) (x1 xo : Vec Ideal S1x64 .f32) (q : Fin 64) :
    k1_pay5 x0 x1 xo (ix2 0 q)
      = xo (ix2 0 q) + ∑ r : Fin 10000, (x0 (ix2 r q) + x1 (ix2 0 q)) * (x0 (ix2 r q) + x1 (ix2 0 q)) := by
  unfold k1_pay5
  rw [addf_apply, shapeCast_self, shapeCast_a_1a_apply]
  refine congrArg (xo (ix2 0 q) + ·) ?_
  refine (Ideal.multiReduction_add_single (mulf (k1_pay3 x0 x1) (k1_pay3 x0 x1)) 0x00000000#32 reduces_S10000x64_S64 (.inl rfl) rfl (ix1 q)).trans ?_
  refine Finset.sum_congr rfl fun (r : Fin 10000) _ => ?_
  refine (congrArg (mulf (k1_pay3 x0 x1) (k1_pay3 x0 x1)) (lift_eq q r)).trans ?_
  rw [mulf_apply, pay3_apply]

end Payload

variable (V : (c : Dev nD) → (b : Ref sig .tc) → Buf (Elt Ideal) ((c : Thread nD τ).loc b))

/-! ## The tiles read off the accumulator -/

/-- The printed index maps, decided over the grid: tile `t` of the accumulator, the bias row whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- Tile `t` of the accumulator, as the window reads it. -/
abbrev xblk (c : Dev nD) (t : Fin cfg1.N) : Vec Ideal S10000x64 .f32 := iblk1 V c 0 t
/-- The bias row, as the window reads it at point `t`. -/
abbrev xbias (c : Dev nD) (t : Fin cfg1.N) : Vec Ideal S1x64 .f32 := iblk1 V c 1 t
/-- The accumulator as the region finds it. -/
abbrev acc (c : Dev nD) : Vec Ideal S200000x64 .f32 := V c main_v19
/-- The bias row as the region finds it. -/
abbrev bias (c : Dev nD) : Vec Ideal S1x64 .f32 := V c main_v20

/-- Element (r, q) of tile `t` is the accumulator at voxel 10000 t + r, channel q. -/
theorem xblk_apply (c : Dev nD) (t : Fin cfg1.N) (r : Fin 10000) (q : Fin 64) (h : t.val * 10000 + r.val < 200000) :
    xblk V c t (ix2 r q) = acc V c (ix2 ⟨t.val * 10000 + r.val, h⟩ q) := by
  obtain ⟨e0, e1, -, -⟩ := idx_facts t
  unfold xblk iblk1
  rw [View.read_apply]
  show V c main_v19 _ = V c main_v19 _
  congr 1
  funext a; apply Fin.ext
  match a with
  | ⟨0, _⟩ => show win1_0.index t (0 : Fin 2) * 10000 + 1 * r.val = t.val * 10000 + r.val; rw [e0]; omega
  | ⟨1, _⟩ => show win1_0.index t (1 : Fin 2) * 64 + 1 * q.val = q.val; rw [e1]; omega

/-- The bias window is the bias row at every point. -/
theorem bias_apply (c : Dev nD) (t : Fin cfg1.N) (q : Fin 64) :
    xbias V c t (ix2 0 q) = bias V c (ix2 0 q) := by
  obtain ⟨-, -, e0, e1⟩ := idx_facts t
  unfold xbias iblk1
  rw [View.read_apply]
  show V c main_v20 _ = V c main_v20 _
  congr 1
  funext a; apply Fin.ext
  match a with
  | ⟨0, _⟩ => show win1_1.index t (0 : Fin 2) * 1 + 1 * 0 = 0; rw [e0]
  | ⟨1, _⟩ => show win1_1.index t (1 : Fin 2) * 64 + 1 * q.val = q.val; rw [e1]; omega

/-! ## The running totals -/

/-- The sum down tile `k` of accumulator + bias at channel `q` (zero past the grid). -/
def tileSum (c : Dev nD) (q : Fin 64) (k : ℕ) : EReal :=
  if h : k < cfg1.N then
    ∑ r : Fin 10000, (xblk V c ⟨k, h⟩ (ix2 r q) + xbias V c ⟨k, h⟩ (ix2 0 q))
  else 0

/-- The sum down tile `k` of (accumulator + bias)² at channel `q` (zero past the grid). -/
def tileSq (c : Dev nD) (q : Fin 64) (k : ℕ) : EReal :=
  if h : k < cfg1.N then
    ∑ r : Fin 10000, (xblk V c ⟨k, h⟩ (ix2 r q) + xbias V c ⟨k, h⟩ (ix2 0 q))
      * (xblk V c ⟨k, h⟩ (ix2 r q) + xbias V c ⟨k, h⟩ (ix2 0 q))
  else 0

/-- After tile `n` the first totals row holds the sum of the tile sums so far: by induction on the tile. -/
theorem sum_inv (c : Dev nD) (q : Fin 64) : ∀ (n : ℕ) (hn : n < cfg1.N),
    (outsAt1 V c n hn).1 (ix2 0 q) = ∑ k ∈ Finset.range (n + 1), tileSum V c q k
  | 0, hn => by
    rw [outsAt1_A V c ⟨0, hn⟩ rfl]
    dsimp only
    rw [out_A_2, pay4_apply, pay1_apply, zero_add, Finset.sum_range_one]
    unfold tileSum
    rw [dif_pos hn]
  | n + 1, hn => by
    have hN : cfg1.N = 20 := N_1
    have hB : ¬(⟨n + 1, hn⟩ : Fin cfg1.N).val % 20 = 0 := by dsimp only; omega
    rw [Finset.sum_range_succ, ← sum_inv c q n (Nat.lt_of_succ_lt hn), outsAt1_B V c ⟨n + 1, hn⟩ hB]
    dsimp only
    rw [out_B_2, pay4_apply]
    unfold tileSum
    rw [dif_pos hn]
    rfl

/-- After tile `n` the second totals row holds the sum of the tile sums of squares so far. -/
theorem sq_inv (c : Dev nD) (q : Fin 64) : ∀ (n : ℕ) (hn : n < cfg1.N),
    (outsAt1 V c n hn).2 (ix2 0 q) = ∑ k ∈ Finset.range (n + 1), tileSq V c q k
  | 0, hn => by
    rw [outsAt1_A V c ⟨0, hn⟩ rfl]
    dsimp only
    rw [out_A_3, pay5_apply, pay2_apply, zero_add, Finset.sum_range_one]
    unfold tileSq
    rw [dif_pos hn]
  | n + 1, hn => by
    have hN : cfg1.N = 20 := N_1
    have hB : ¬(⟨n + 1, hn⟩ : Fin cfg1.N).val % 20 = 0 := by dsimp only; omega
    rw [Finset.sum_range_succ, ← sq_inv c q n (Nat.lt_of_succ_lt hn), outsAt1_B V c ⟨n + 1, hn⟩ hB]
    dsimp only
    rw [out_B_3, pay5_apply]
    unfold tileSq
    rw [dif_pos hn]
    rfl

/-- A term of a tile sum is the accumulator + bias at the tile's voxel. -/
theorem tile_term (c : Dev nD) (a : Fin 20) (r : Fin 10000) (q : Fin 64) (ha : a.val < cfg1.N)
    (h : a.val * 10000 + r.val < 200000) :
    xblk V c ⟨a.val, ha⟩ (ix2 r q) + xbias V c ⟨a.val, ha⟩ (ix2 0 q)
      = acc V c (ix2 ⟨a.val * 10000 + r.val, h⟩ q) + bias V c (ix2 0 q) :=
  congrArg₂ (· + ·) (xblk_apply V c ⟨a.val, ha⟩ r q h) (bias_apply V c ⟨a.val, ha⟩ q)

/-- The twenty tile sums are the sum over all 200000 voxels. -/
theorem total_sum (c : Dev nD) (q : Fin 64) :
    ∑ k ∈ Finset.range 20, tileSum V c q k = ∑ r : Fin 200000, (acc V c (ix2 r q) + bias V c (ix2 0 q)) := by
  have hN : cfg1.N = 20 := N_1
  refine Eq.trans ?_ (TiledSum.sum_fin_tiles 20 10000 rfl
    (fun r : Fin 200000 => acc V c (ix2 r q) + bias V c (ix2 0 q))).symm
  rw [Finset.sum_range]
  refine Finset.sum_congr rfl fun a _ => ?_
  have ha : a.val < cfg1.N := by have := a.isLt; omega
  unfold tileSum
  rw [dif_pos ha]
  exact Finset.sum_congr rfl fun r _ => tile_term V c a r q ha _

/-- The twenty tile sums of squares are the sum of squares over all 200000 voxels. -/
theorem total_sq (c : Dev nD) (q : Fin 64) :
    ∑ k ∈ Finset.range 20, tileSq V c q k
      = ∑ r : Fin 200000, (acc V c (ix2 r q) + bias V c (ix2 0 q)) * (acc V c (ix2 r q) + bias V c (ix2 0 q)) := by
  have hN : cfg1.N = 20 := N_1
  refine Eq.trans ?_ (TiledSum.sum_fin_tiles 20 10000 rfl
    (fun r : Fin 200000 => (acc V c (ix2 r q) + bias V c (ix2 0 q)) * (acc V c (ix2 r q) + bias V c (ix2 0 q)))).symm
  rw [Finset.sum_range]
  refine Finset.sum_congr rfl fun a _ => ?_
  have ha : a.val < cfg1.N := by have := a.isLt; omega
  unfold tileSq
  rw [dif_pos ha]
  exact Finset.sum_congr rfl fun r _ => congrArg₂ (· * ·) (tile_term V c a r q ha _) (tile_term V c a r q ha _)

/-! ## The write-back -/

/-- The last point of the grid. -/
abbrev tlast : Fin cfg1.N := ⟨19, by rw [show cfg1.N = 20 from N_1]; decide⟩

/-- The one write-back of the first totals row, after the last tile, writes what that tile left: the block is the row. -/
theorem flushed2_eq (c : Dev nD) (t : Fin cfg1.N) (hf : (cfg1.win 2).flush t = true) :
    (dat1 V c).flushed 2 t = ((cfg1.win 2).blk t).view.read (Elt Ideal) ((outsAt1 V c tlast.val tlast.isLt).1) := by
  have hN : cfg1.N = 20 := N_1
  have h19 : t.val = 19 := by have := (flush1_2 t).mp hf; have := t.isLt; omega
  obtain rfl : t = tlast := Fin.ext h19
  show (cfg1.win 2).cut (grid1.coords tlast) ((dat1 V c).after 2 tlast) = _
  rw [after1_2]
  have hz' : (fun a => win1_2.index tlast a * main_v23_0.ty.shape.size a) = fun _ => 0 := funext fun a => by fin_cases a <;> decide
  exact (Memref.read_access_unit_zero (Elt Ideal) main_v23_0 hz' (fun a => by rw [congrFun hz' a]; simp) _).symm

/-- The one write-back of the second totals row likewise. -/
theorem flushed3_eq (c : Dev nD) (t : Fin cfg1.N) (hf : (cfg1.win 3).flush t = true) :
    (dat1 V c).flushed 3 t = ((cfg1.win 3).blk t).view.read (Elt Ideal) ((outsAt1 V c tlast.val tlast.isLt).2) := by
  have hN : cfg1.N = 20 := N_1
  have h19 : t.val = 19 := by have := (flush1_3 t).mp hf; have := t.isLt; omega
  obtain rfl : t = tlast := Fin.ext h19
  show (cfg1.win 3).cut (grid1.coords tlast) ((dat1 V c).after 3 tlast) = _
  rw [after1_3]
  have hz' : (fun a => win1_3.index tlast a * main_v23_1.ty.shape.size a) = fun _ => 0 := funext fun a => by fin_cases a <;> decide
  exact (Memref.read_access_unit_zero (Elt Ideal) main_v23_1 hz' (fun a => by rw [congrFun hz' a]; simp) _).symm

/-- So the first totals array ends holding what the last tile left. -/
theorem final2 (c : Dev nD) : (dat1 V c).arrAt 2 cfg1.N = (outsAt1 V c tlast.val tlast.isLt).1 :=
  (dat1 V c).arrAt_eq_of_cover 2 _ (flushed2_eq V c) fun i =>
    ⟨tlast, (flush1_2 tlast).mpr rfl, by
      show i ∈ ((View.whole main_v23_0).slice (win1_2.rect tlast)).set
      rw [View.set_slice_whole, Rect.mem_set_unit]
      intro a
      have h0 : (i 0 : Nat) < 1 := (i 0).isLt
      have h1 : (i 1 : Nat) < 64 := (i 1).isLt
      match a with
      | ⟨0, _⟩ => show win1_2.index tlast 0 * win1_2.size 0 ≤ (i 0 : Nat) ∧ (i 0 : Nat) < win1_2.index tlast 0 * win1_2.size 0 + win1_2.xsize (grid1.coords tlast) 0
                  rw [show win1_2.index tlast 0 * win1_2.size 0 = 0 from by decide +kernel, show win1_2.xsize (grid1.coords tlast) 0 = 1 from by decide +kernel]; omega
      | ⟨1, _⟩ => show win1_2.index tlast 1 * win1_2.size 1 ≤ (i 1 : Nat) ∧ (i 1 : Nat) < win1_2.index tlast 1 * win1_2.size 1 + win1_2.xsize (grid1.coords tlast) 1
                  rw [show win1_2.index tlast 1 * win1_2.size 1 = 0 from by decide +kernel, show win1_2.xsize (grid1.coords tlast) 1 = 64 from by decide +kernel]; omega⟩

/-- And the second totals array likewise. -/
theorem final3 (c : Dev nD) : (dat1 V c).arrAt 3 cfg1.N = (outsAt1 V c tlast.val tlast.isLt).2 :=
  (dat1 V c).arrAt_eq_of_cover 3 _ (flushed3_eq V c) fun i =>
    ⟨tlast, (flush1_3 tlast).mpr rfl, by
      show i ∈ ((View.whole main_v23_1).slice (win1_3.rect tlast)).set
      rw [View.set_slice_whole, Rect.mem_set_unit]
      intro a
      have h0 : (i 0 : Nat) < 1 := (i 0).isLt
      have h1 : (i 1 : Nat) < 64 := (i 1).isLt
      match a with
      | ⟨0, _⟩ => show win1_3.index tlast 0 * win1_3.size 0 ≤ (i 0 : Nat) ∧ (i 0 : Nat) < win1_3.index tlast 0 * win1_3.size 0 + win1_3.xsize (grid1.coords tlast) 0
                  rw [show win1_3.index tlast 0 * win1_3.size 0 = 0 from by decide +kernel, show win1_3.xsize (grid1.coords tlast) 0 = 1 from by decide +kernel]; omega
      | ⟨1, _⟩ => show win1_3.index tlast 1 * win1_3.size 1 ≤ (i 1 : Nat) ∧ (i 1 : Nat) < win1_3.index tlast 1 * win1_3.size 1 + win1_3.xsize (grid1.coords tlast) 1
                  rw [show win1_3.index tlast 1 * win1_3.size 1 = 0 from by decide +kernel, show win1_3.xsize (grid1.coords tlast) 1 = 64 from by decide +kernel]; omega⟩

/-- After the region, the first totals row holds the channel sums of accumulator + bias. -/
theorem arr_sum_eq (c : Dev nD) :
    (dat1 (F := Ideal) V c).arrAt 2 cfg1.N = Cert.ConvBn.colSum (V c main_v19) (V c main_v20) := by
  rw [final2]
  refine funext fun (j : (⟨2, ![1, 64]⟩ : Shape).Idx) => ?_
  obtain ⟨u, q, rfl⟩ : ∃ (u : Fin 1) (q : Fin 64), j = ix2 u q := ⟨j 0, j 1, eq_ix2 j⟩
  obtain rfl : u = 0 := Subsingleton.elim u 0
  exact ((sum_inv V c q 19 tlast.isLt).trans (total_sum V c q)).trans (Cert.ConvBn.colSum_apply _ _ q).symm

/-- After the region, the second totals row holds the channel sums of (accumulator + bias)². -/
theorem arr_sumsq_eq (c : Dev nD) :
    (dat1 (F := Ideal) V c).arrAt 3 cfg1.N = Cert.ConvBn.colSumSq (V c main_v19) (V c main_v20) := by
  rw [final3]
  refine funext fun (j : (⟨2, ![1, 64]⟩ : Shape).Idx) => ?_
  obtain ⟨u, q, rfl⟩ : ∃ (u : Fin 1) (q : Fin 64), j = ix2 u q := ⟨j 0, j 1, eq_ix2 j⟩
  obtain rfl : u = 0 := Subsingleton.elim u 0
  exact ((sq_inv V c q 19 tlast.isLt).trans (total_sq V c q)).trans (Cert.ConvBn.colSumSq_apply _ _ q).symm

end Cert.KernelIdeal.StatsValue

end
-- ==== Proof.NormValue.lean ====
/-
  The third kernel region walks the accumulator in 20 tiles of 10000 voxels and writes, for every voxel and channel,
  ((accumulator + bias − mean) · (variance + ε)^(-1/2)) · γ + β clamped below at zero, the five rows read whole at every
  tile. Over the whole grid the array it writes is that function of the accumulator and the rows.
-/
import proofs.«109595_j56392920596826_1_alg».proof.Proof.Gen.KernelIdeal.Frame
import proofs.«109595_j56392920596826_1_alg».proof.Proof.ConvBnSpec
import Idealize.ShloMosaic.Lib.Pipeline.Value
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.NormValue

open Cert.KernelIdeal Cert.KernelIdeal.Gen

/-- The zero offsets of a whole-block access, as the constant function. -/
private theorem hz2 : (![0, 0] : Fin 2 → Nat) = fun _ => 0 := funext fun a => by fin_cases a <;> rfl

/-- A row broadcast down the 10000 voxels of a tile reads, at voxel r and channel q, the row's entry at channel q. -/
private theorem bc_apply (x : FVec Ideal S1x64 .f32) (h : S1x64.Broadcasts S10000x64) (r : Fin 10000) (q : Fin 64) :
    broadcastTo S10000x64 x h (ix2 r q) = x (ix2 0 q) := by
  refine broadcastTo_apply x h (ix2 r q) (ix2 0 q) ?_
  intro a
  match a with
  | ⟨0, _⟩ => rfl
  | ⟨1, _⟩ => rfl

/-- The tile's stored value at voxel r and channel q: the normalisation formula of the tile's entry and the rows' entries
    at channel q. The third row argument is the variance and the fourth the mean. -/
private theorem pay_apply (v0 : Vec Ideal S10000x64 .f32) (v2 v6 v11 v17 v21 : Vec Ideal S1x64 .f32) (r : Fin 10000) (q : Fin 64) :
    k2_pay1 (F := Ideal) v0 v2 v6 v11 v17 v21 (ix2 r q)
      = max ((((v0 (ix2 r q) + v2 (ix2 0 q)) - v11 (ix2 0 q)) * Ideal.rsqrt (v6 (ix2 0 q) + Ideal.ofBits .f32 0x3727C5AC#32)) * v17 (ix2 0 q)
          + v21 (ix2 0 q)) (Ideal.ofBits .f32 0x00000000#32) := by
  unfold k2_pay1
  simp only [maximumf_apply, addf_apply, mulf_apply, subf_apply, shapeCast_self, broadcast_apply, bc_apply]
  rfl

variable (V : (c : Dev nD) → (b : Ref sig .tc) → Buf (Elt Ideal) ((c : Thread nD τ).loc b))

/-- The tiles' index maps at every point of the grid: the accumulator's tile moves with the output's tile, the five rows sit
    at block (0, 0), and the output's tile index is the point's number on the voxel axis and zero on the channel axis. -/
private theorem idx_facts : ∀ t : Fin cfg2.N, win2_0.index t (0 : Fin 2) = t.val
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Voxel r of tile t is voxel t · 10000 + r of the array. -/
private theorem vox_lt (t : Fin cfg2.N) (r : Fin 10000) : t.val * 10000 + r.val < 200000 := by
  have ht : t.val < 20 := N_2 ▸ t.isLt
  have hr := r.isLt
  omega

/-- Where entry (r, q) of the output's tile at point t sits in the output array. -/
private theorem emb6 (t : Fin cfg2.N) (r : Fin 10000) (q : Fin 64) :
    ((cfg2.win 6).blk t).view.emb (ix2 r q) = (ix2 ⟨t.val * 10000 + r.val, vox_lt t r⟩ q : S200000x64.Idx) := by
  obtain ⟨e00, e01, e10, e11, e20, e21, e30, e31, e40, e41, e50, e51, e60, e61⟩ := idx_facts t
  funext a; apply Fin.ext
  match a with
  | ⟨0, _⟩ => show win2_6.index t (0 : Fin 2) * 10000 + 1 * r.val = t.val * 10000 + r.val; omega
  | ⟨1, _⟩ => show win2_6.index t (1 : Fin 2) * 64 + 1 * q.val = q.val; omega

/-- Entry (r, q) of the accumulator's tile at point t is the accumulator at voxel t · 10000 + r and channel q. -/
private theorem iblk0_apply (c : Dev nD) (t : Fin cfg2.N) (r : Fin 10000) (q : Fin 64) :
    iblk2 (F := Ideal) V c 0 t (ix2 r q) = V c main_v19 (ix2 ⟨t.val * 10000 + r.val, vox_lt t r⟩ q : S200000x64.Idx) := by
  obtain ⟨e00, e01, e10, e11, e20, e21, e30, e31, e40, e41, e50, e51, e60, e61⟩ := idx_facts t
  show V c main_v19 (((cfg2.win 0).blk t).view.emb (ix2 r q)) = _
  congr 1
  funext a; apply Fin.ext
  match a with
  | ⟨0, _⟩ => show win2_0.index t (0 : Fin 2) * 10000 + 1 * r.val = t.val * 10000 + r.val; omega
  | ⟨1, _⟩ => show win2_0.index t (1 : Fin 2) * 64 + 1 * q.val = q.val; omega

/-- Each row's block at every point is the whole row. -/
private theorem iblk1_apply (c : Dev nD) (t : Fin cfg2.N) (q : Fin 64) :
    iblk2 (F := Ideal) V c 1 t (ix2 0 q) = V c main_v20 (ix2 0 q : S1x64.Idx) := by
  obtain ⟨e00, e01, e10, e11, e20, e21, e30, e31, e40, e41, e50, e51, e60, e61⟩ := idx_facts t
  show V c main_v20 (((cfg2.win 1).blk t).view.emb (ix2 0 q)) = _
  congr 1
  funext a; apply Fin.ext
  match a with
  | ⟨0, _⟩ => show win2_1.index t (0 : Fin 2) * 1 + 1 * 0 = 0; omega
  | ⟨1, _⟩ => show win2_1.index t (1 : Fin 2) * 64 + 1 * q.val = q.val; omega

private theorem iblk2_apply (c : Dev nD) (t : Fin cfg2.N) (q : Fin 64) :
    iblk2 (F := Ideal) V c 2 t (ix2 0 q) = V c main_v25 (ix2 0 q : S1x64.Idx) := by
  obtain ⟨e00, e01, e10, e11, e20, e21, e30, e31, e40, e41, e50, e51, e60, e61⟩ := idx_facts t
  show V c main_v25 (((cfg2.win 2).blk t).view.emb (ix2 0 q)) = _
  congr 1
  funext a; apply Fin.ext
  match a with
  | ⟨0, _⟩ => show win2_2.index t (0 : Fin 2) * 1 + 1 * 0 = 0; omega
  | ⟨1, _⟩ => show win2_2.index t (1 : Fin 2) * 64 + 1 * q.val = q.val; omega

private theorem iblk3_apply (c : Dev nD) (t : Fin cfg2.N) (q : Fin 64) :
    iblk2 (F := Ideal) V c 3 t (ix2 0 q) = V c main_v29 (ix2 0 q : S1x64.Idx) := by
  obtain ⟨e00, e01, e10, e11, e20, e21, e30, e31, e40, e41, e50, e51, e60, e61⟩ := idx_facts t
  show V c main_v29 (((cfg2.win 3).blk t).view.emb (ix2 0 q)) = _
  congr 1
  funext a; apply Fin.ext
  match a with
  | ⟨0, _⟩ => show win2_3.index t (0 : Fin 2) * 1 + 1 * 0 = 0; omega
  | ⟨1, _⟩ => show win2_3.index t (1 : Fin 2) * 64 + 1 * q.val = q.val; omega

private theorem iblk4_apply (c : Dev nD) (t : Fin cfg2.N) (q : Fin 64) :
    iblk2 (F := Ideal) V c 4 t (ix2 0 q) = V c main_v21 (ix2 0 q : S1x64.Idx) := by
  obtain ⟨e00, e01, e10, e11, e20, e21, e30, e31, e40, e41, e50, e51, e60, e61⟩ := idx_facts t
  show V c main_v21 (((cfg2.win 4).blk t).view.emb (ix2 0 q)) = _
  congr 1
  funext a; apply Fin.ext
  match a with
  | ⟨0, _⟩ => show win2_4.index t (0 : Fin 2) * 1 + 1 * 0 = 0; omega
  | ⟨1, _⟩ => show win2_4.index t (1 : Fin 2) * 64 + 1 * q.val = q.val; omega

private theorem iblk5_apply (c : Dev nD) (t : Fin cfg2.N) (q : Fin 64) :
    iblk2 (F := Ideal) V c 5 t (ix2 0 q) = V c main_v22 (ix2 0 q : S1x64.Idx) := by
  obtain ⟨e00, e01, e10, e11, e20, e21, e30, e31, e40, e41, e50, e51, e60, e61⟩ := idx_facts t
  show V c main_v22 (((cfg2.win 5).blk t).view.emb (ix2 0 q)) = _
  congr 1
  funext a; apply Fin.ext
  match a with
  | ⟨0, _⟩ => show win2_5.index t (0 : Fin 2) * 1 + 1 * 0 = 0; omega
  | ⟨1, _⟩ => show win2_5.index t (1 : Fin 2) * 64 + 1 * q.val = q.val; omega

/-- What point t writes back is tile t of the normalisation of the accumulator by the rows. -/
private theorem flushed_eq (c : Dev nD) (t : Fin cfg2.N) :
    (dat2 (F := Ideal) V c).flushed 6 t
      = ((cfg2.win 6).blk t).view.read (Elt Ideal)
          (Cert.ConvBn.normalize (V c main_v19) (V c main_v20) (V c main_v25) (V c main_v29) (V c main_v21) (V c main_v22)) := by
  show (cfg2.win 6).cut (grid2.coords t) ((dat2 (F := Ideal) V c).after 6 t) = _
  rw [after2_6]
  unfold out2_6
  rw [View.canon_unit_zero hz2]
  simp only [View.ld_unit_zero (S := S10000x64) hz2, View.ld_unit_zero (S := S1x64) hz2]
  refine funext fun (j : S10000x64.Idx) => ?_
  obtain ⟨r, q, rfl⟩ : ∃ (r : Fin 10000) (q : Fin 64), j = ix2 r q := ⟨j 0, j 1, eq_ix2 j⟩
  show k2_pay1 (F := Ideal) (iblk2 V c 0 t) (iblk2 V c 1 t) (iblk2 V c 3 t) (iblk2 V c 2 t) (iblk2 V c 4 t) (iblk2 V c 5 t) (ix2 r q)
    = Cert.ConvBn.normalize (V c main_v19) (V c main_v20) (V c main_v25) (V c main_v29) (V c main_v21) (V c main_v22)
        (((cfg2.win 6).blk t).view.emb (ix2 r q))
  refine (pay_apply _ _ _ _ _ _ r q).trans ?_
  rw [emb6, Cert.ConvBn.normalize_apply, iblk0_apply, iblk1_apply, iblk2_apply, iblk3_apply, iblk4_apply, iblk5_apply]
  rfl

/-- An index of the output array is in point t's tile iff each coordinate is in the tile's range on its axis. -/
private theorem mem_blk (t : Fin cfg2.N) (i : S200000x64.Idx) :
    i ∈ ((cfg2.win 6).blk t).view.set ↔ ∀ a : Fin 2, win2_6.index t a * S10000x64.size a ≤ (i a).val ∧ (i a).val < win2_6.index t a * S10000x64.size a + S10000x64.size a := by
  show i ∈ ((View.whole main_v30).slice (win2_6.rect t)).set ↔ _
  rw [View.set_slice_whole, Rect.mem_set_unit]
  exact Iff.rfl

/-- Every voxel is in some point's tile: voxel r in the tile of point r / 10000. -/
private theorem cover (i : S200000x64.Idx) :
    ∃ t : Fin cfg2.N, (cfg2.win 6).flush t = true ∧ i ∈ ((cfg2.win 6).blk t).view.set := by
  have hi0 : (i 0).val < 200000 := (i 0).isLt
  have hi1 : (i 1).val < 64 := (i 1).isLt
  have hN : (i 0).val / 10000 < cfg2.N := by
    show (i 0).val / 10000 < grid2.N
    rw [N_2]; omega
  refine ⟨⟨(i 0).val / 10000, hN⟩, flush2_6 _, ?_⟩
  obtain ⟨e00, e01, e10, e11, e20, e21, e30, e31, e40, e41, e50, e51, e60, e61⟩ := idx_facts ⟨(i 0).val / 10000, hN⟩
  rw [mem_blk]
  intro a
  match a with
  | ⟨0, _⟩ =>
    show win2_6.index ⟨(i 0).val / 10000, hN⟩ (0 : Fin 2) * 10000 ≤ (i 0).val ∧ (i 0).val < win2_6.index ⟨(i 0).val / 10000, hN⟩ (0 : Fin 2) * 10000 + 10000
    rw [e60]
    show (i 0).val / 10000 * 10000 ≤ (i 0).val ∧ (i 0).val < (i 0).val / 10000 * 10000 + 10000
    omega
  | ⟨1, _⟩ =>
    show win2_6.index ⟨(i 0).val / 10000, hN⟩ (1 : Fin 2) * 64 ≤ (i 1).val ∧ (i 1).val < win2_6.index ⟨(i 0).val / 10000, hN⟩ (1 : Fin 2) * 64 + 64
    rw [e61]
    omega

/-- After the region, the result array is the normalisation of the accumulator by the rows as the region found them. -/
theorem arr_eq (c : Dev nD) :
    (dat2 (F := Ideal) V c).arrAt 6 cfg2.N
      = Cert.ConvBn.normalize (V c main_v19) (V c main_v20) (V c main_v25) (V c main_v29) (V c main_v21) (V c main_v22) :=
  (dat2 (F := Ideal) V c).arrAt_eq_of_cover 6 _ (fun t _ => flushed_eq V c t) cover

end Cert.KernelIdeal.NormValue

end
-- ==== Proof.KernelValue.lean ====
/-
  The kernel program's result as one function of its arguments. Reading back through its three regions and the host
  operations between them: the first region's array is the per-offset product of the gathered rows and the weights;
  the host scatters it into a zero accumulator; the second region's two rows are the channel sums of accumulator + bias
  and of its square; the host divides them by the voxel count into the mean and the variance (mean of squares minus
  squared mean); the third region normalises. So the result is the specification's function of the scattered
  accumulator and of the bias, scale and shift rows.
-/
import proofs.«109595_j56392920596826_1_alg».proof.Proof.KernelRun
import proofs.«109595_j56392920596826_1_alg».proof.Proof.HostReads
import proofs.«109595_j56392920596826_1_alg».proof.Proof.GemmValue
import proofs.«109595_j56392920596826_1_alg».proof.Proof.StatsValue
import proofs.«109595_j56392920596826_1_alg».proof.Proof.NormValue
import proofs.«109595_j56392920596826_1_alg».proof.Proof.ConvBnSpec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.HostReads

variable (m : (ℓ : Loc nD τ sig) → Buf (Elt Ideal) ℓ) (ρ : Dev nD → PrngReg)

/-- The gathered feature rows, as the first region finds them. -/
def gathered (c : Dev nD) : FVec Ideal S27x100000x64 .bf16 :=
  Host.gather gather_S200000x64_S27x100000x1_S27x100000x64_2_0_n_n_0_2_164
    (truncf (F := Ideal) .bf16 (m ((c : Thread nD τ).loc main_arg0)) bitsLt_bf16_f32) (gidx (F := Ideal) (m ((c : Thread nD τ).loc main_arg5)))

/-- The per-offset products of the gathered rows and the weights. -/
def partials (c : Dev nD) : FVec Ideal S27x100000x64 .f32 :=
  Cert.ConvBn.gemm (gathered m c) (truncf (F := Ideal) .bf16 (m ((c : Thread nD τ).loc main_arg1)) bitsLt_bf16_f32 : FVec Ideal S27x64x64 .bf16)

/-- The scattered accumulator: the products added into a zero array at the rows the output indices name. -/
def acc (c : Dev nD) : FVec Ideal S200000x64 .f32 :=
  Host.scatterAdd (F := Ideal) scatter_S200000x64_S2700000x1_S2700000x64_1_0_0_1
    (broadcastInDim S200000x64 ![] bcast_S_S200000x64 (constant (F := Ideal) S_ .f32 0x00000000#32))
    (sidx (F := Ideal) (m ((c : Thread nD τ).loc main_arg6)))
    (shapeCast S2700000x64 (partials m c) shapeCasts_S27x100000x64_S2700000x64)

/-- A channel vector reshaped to a one-row matrix is that row. -/
theorem row_eq (x : FVec Ideal S64 .f32) :
    (shapeCast S1x64 x shapeCasts_S64_S1x64 : FVec Ideal S1x64 .f32) = Cert.ConvBn.rowOf x := by
  funext j
  refine (shapeCast_addUnit_apply (![64] : Fin 1 → Nat) x shapeCasts_S64_S1x64 j).trans ?_
  refine congrArg x (funext fun a => ?_)
  match a with
  | ⟨0, _⟩ => rfl

/-- The accumulator the second region is entered with. -/
theorem W3_acc (c : Dev nD) : W3 m ρ c (Proc.devRef .tc main_v19) = acc m c := by
  rw [W3_v19, GemmValue.arr_eq (V1 m ρ) c]
  show Host.scatterAdd (F := Ideal) scatter_S200000x64_S2700000x1_S2700000x64_1_0_0_1 _ _
    (shapeCast S2700000x64 (Cert.ConvBn.gemm (W1 m ρ c (Proc.devRef .tc main_v8)) (W1 m ρ c (Proc.devRef .tc main_v1))) shapeCasts_S27x100000x64_S2700000x64) = _
  rw [W1_v8, W1_v1]
  rfl

/-- The quotient of a row by the voxel count, entry by entry. -/
theorem divf_nrow (s : FVec Ideal S1x64 .f32) :
    Host.divf (F := Ideal) s (nrow (F := Ideal)) = (Cert.ConvBn.mean s : FVec Ideal S1x64 .f32) := by
  funext j
  rfl

/-- The result array after the run is the specification's function of the scattered accumulator and the three rows. -/
theorem out_eq (c : Dev nD) :
    W6 m ρ c (Proc.devRef .tc main_v30)
      = Cert.ConvBn.result (acc m c) (Cert.ConvBn.rowOf (m ((c : Thread nD τ).loc main_arg2)))
          (Cert.ConvBn.rowOf (m ((c : Thread nD τ).loc main_arg3))) (Cert.ConvBn.rowOf (m ((c : Thread nD τ).loc main_arg4))) := by
  rw [W6_v30, NormValue.arr_eq (V5 m ρ) c]
  show Cert.ConvBn.normalize (W5 m ρ c (Proc.devRef .tc main_v19)) (W5 m ρ c (Proc.devRef .tc main_v20))
      (W5 m ρ c (Proc.devRef .tc main_v25)) (W5 m ρ c (Proc.devRef .tc main_v29))
      (W5 m ρ c (Proc.devRef .tc main_v21)) (W5 m ρ c (Proc.devRef .tc main_v22)) = _
  rw [W5_v19, W5_v20, W5_v21, W5_v22, W5_v25, W5_v29, StatsValue.arr_sum_eq (V3 m ρ) c, StatsValue.arr_sumsq_eq (V3 m ρ) c]
  show Cert.ConvBn.normalize (W3 m ρ c (Proc.devRef .tc main_v19)) (W3 m ρ c (Proc.devRef .tc main_v20))
      (Host.divf (F := Ideal) (Cert.ConvBn.colSum (W3 m ρ c (Proc.devRef .tc main_v19)) (W3 m ρ c (Proc.devRef .tc main_v20))) (nrow (F := Ideal)))
      (subf (F := Ideal) (Host.divf (F := Ideal) (Cert.ConvBn.colSumSq (W3 m ρ c (Proc.devRef .tc main_v19)) (W3 m ρ c (Proc.devRef .tc main_v20))) (nrow (F := Ideal)))
        (mulf (F := Ideal) (Host.divf (F := Ideal) (Cert.ConvBn.colSum (W3 m ρ c (Proc.devRef .tc main_v19)) (W3 m ρ c (Proc.devRef .tc main_v20))) (nrow (F := Ideal)))
          (Host.divf (F := Ideal) (Cert.ConvBn.colSum (W3 m ρ c (Proc.devRef .tc main_v19)) (W3 m ρ c (Proc.devRef .tc main_v20))) (nrow (F := Ideal)))))
      (W3 m ρ c (Proc.devRef .tc main_v21)) (W3 m ρ c (Proc.devRef .tc main_v22)) = _
  rw [W3_acc, W3_v20, W3_v21, W3_v22, row_eq, row_eq, row_eq]
  rfl

/-- The kernel program's run, its result named as that function. -/
theorem run : θ_run defs (onTc (τ := τ) (main (F := Ideal))) ⟨m, fun _ => 0, ρ⟩ (fun r => ∀ c : Dev nD,
      r.2.mem ((c.tc : Thread nD τ).loc main_v30)
        = Cert.ConvBn.result (acc m c) (Cert.ConvBn.rowOf (m ((c : Thread nD τ).loc main_arg2)))
            (Cert.ConvBn.rowOf (m ((c : Thread nD τ).loc main_arg3))) (Cert.ConvBn.rowOf (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (out_eq m ρ c), (h c).2⟩) (Cert.KernelIdeal.GenRun.run_out (F := Ideal) m ρ)

end Cert.KernelIdeal.KernelValue

end
-- ==== Proof.BnLaws.lean ====
/-
  The variance of finitely many real numbers two ways, stated on the extended reals where the programs compute it:
  the mean of the squared deviations from the mean is the mean of the squares minus the squared mean. The identity
  needs every entry to be a real number (at an infinite entry the two sides differ).
-/
import proofs.«109595_j56392920596826_1_alg».proof.Proof.ConvBnSpec

noncomputable section

open scoped BigOperators
open Idealize.ShloMosaic

namespace Cert.BnLaws

/-- The voxel count's float pattern denotes the real number 200000. -/
private theorem ofBits_nvox : Ideal.ofBits .f32 0x48435000#32 = ((200000 : ℝ) : EReal) := by
  simp [Ideal.ofBits, Ideal.ieee, -EReal.coe_mul]; norm_num

/-- A finite sum of real numbers, read in the extended reals, is the real sum. -/
private theorem coe_sum {n : ℕ} (f : Fin n → ℝ) : (∑ k, (f k : EReal)) = ((∑ k, f k : ℝ) : EReal) := by
  induction (Finset.univ : Finset (Fin n)) using Finset.induction_on with
  | empty => simp
  | insert a s ha ih => rw [Finset.sum_insert ha, Finset.sum_insert ha, ih, EReal.coe_add]

/-- Over the reals: the sum of the squared deviations from any m is the sum of squares minus 2 m times the sum
    plus the count times m squared. -/
private theorem sum_dev_sq (f : Fin 200000 → ℝ) (m : ℝ) :
    ∑ k, (f k - m) * (f k - m) = (∑ k, f k * f k) - 2 * m * (∑ k, f k) + 200000 * (m * m) := by
  have h : ∀ k, (f k - m) * (f k - m) = f k * f k - 2 * m * f k + m * m := fun k => by ring
  simp only [h, Finset.sum_add_distrib, Finset.sum_sub_distrib, ← Finset.mul_sum, Finset.sum_const,
    Finset.card_univ, Fintype.card_fin, nsmul_eq_mul]
  push_cast
  ring

/-- Over 200000 real entries, with the division by the voxel count the programs use: the mean of the squared
    deviations equals the mean of the squares minus the squared mean. -/
theorem var_centered_eq (x : Fin 200000 → EReal) (hx : ∀ k, ∃ r : ℝ, x k = (r : EReal)) :
    Ideal.div (∑ k, (x k - Ideal.div (∑ k', x k') Cert.ConvBn.nvox) * (x k - Ideal.div (∑ k', x k') Cert.ConvBn.nvox)) Cert.ConvBn.nvox
      = Ideal.div (∑ k, x k * x k) Cert.ConvBn.nvox
        - Ideal.div (∑ k, x k) Cert.ConvBn.nvox * Ideal.div (∑ k, x k) Cert.ConvBn.nvox := by
  choose f hf using hx
  obtain rfl : x = fun k => (f k : EReal) := funext hf
  have hN : (200000 : ℝ) ≠ 0 := by norm_num
  simp only [Cert.ConvBn.nvox, ofBits_nvox, Ideal.div_coe hN, coe_sum f, ← EReal.coe_mul, ← EReal.coe_sub]
  rw [coe_sum (fun k => f k * f k), coe_sum (fun k => (f k - (∑ k', f k') * (1 / 200000)) * (f k - (∑ k', f k') * (1 / 200000)))]
  simp only [← EReal.coe_mul, ← EReal.coe_sub]
  congr 1
  rw [sum_dev_sq]
  field_simp
  ring

end Cert.BnLaws

end
-- ==== Proof.RefValue.lean ====
/-
  The reference computes the same block with whole-array operations: it adds the bias to the scattered accumulator,
  takes each channel's mean over the voxels, the mean of the squared deviations from it as the variance, and
  normalises. When the accumulator and the bias are real numbers its variance is the mean of squares minus the squared
  mean, so its result is the specification's function of the accumulator and the three rows.
-/
import proofs.«109595_j56392920596826_1_alg».proof.Proof.Gen.ReferenceIdeal.Read
import proofs.«109595_j56392920596826_1_alg».proof.Proof.ConvBnSpec
import proofs.«109595_j56392920596826_1_alg».proof.Proof.BnLaws
import Idealize.ShloMosaic.Lib.ValueLayout

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-- The biased accumulator: the scattered accumulator plus the channel's bias. -/
private theorem v20_at (x0 : (⟨S200000x64, .f32⟩ : BufTy).Contents (Elt Ideal)) (x1 : (⟨S27x64x64, .f32⟩ : BufTy).Contents (Elt Ideal))
    (x2 : (⟨S64, .f32⟩ : BufTy).Contents (Elt Ideal)) (x5 x6 : (⟨S27x100000, .i32⟩ : BufTy).Contents (Elt Ideal)) (i : S200000x64.Idx) :
    val_main_v20 (F := Ideal) x0 x1 x2 x5 x6 i = val_main_v17 (F := Ideal) x0 x1 x5 x6 i + x2 (ix1 (i 1)) := by
  rw [val_main_v20_apply, val_main_v19_apply, val_main_v18_apply, Ideal.addf_def]
  have h : idx_main_v18 (idx_main_v19 i) = ix1 (i 1) := funext fun a => Fin.ext (by match a with | ⟨0, _⟩ => rfl)
  rw [h]
  rfl

/-- The channel's sum of the biased accumulator over the voxels. -/
private theorem v21_at (x0 : (⟨S200000x64, .f32⟩ : BufTy).Contents (Elt Ideal)) (x1 : (⟨S27x64x64, .f32⟩ : BufTy).Contents (Elt Ideal))
    (x2 : (⟨S64, .f32⟩ : BufTy).Contents (Elt Ideal)) (x5 x6 : (⟨S27x100000, .i32⟩ : BufTy).Contents (Elt Ideal)) (q : Fin 64) :
    val_main_v21 (F := Ideal) x0 x1 x2 x5 x6 (ix1 q) = ∑ k : Fin 200000, (val_main_v17 (F := Ideal) x0 x1 x5 x6 (ix2 k q) + x2 (ix1 q)) := by
  rw [val_main_v21_apply, val_main_cst_3_apply, Ideal.ofBits_def, Ideal.ofBits_zero_f32, zero_add]
  refine Finset.sum_congr rfl fun k _ => ?_
  have h : idx_main_v21 (ix1 q) k = ix2 k q := funext fun a => Fin.ext (by match a with | ⟨0, _⟩ => rfl | ⟨1, _⟩ => rfl)
  rw [h, v20_at]

/-- The channel's mean. -/
private theorem v23_at (x0 : (⟨S200000x64, .f32⟩ : BufTy).Contents (Elt Ideal)) (x1 : (⟨S27x64x64, .f32⟩ : BufTy).Contents (Elt Ideal))
    (x2 : (⟨S64, .f32⟩ : BufTy).Contents (Elt Ideal)) (x5 x6 : (⟨S27x100000, .i32⟩ : BufTy).Contents (Elt Ideal)) (q : Fin 64) :
    val_main_v23 (F := Ideal) x0 x1 x2 x5 x6 (ix1 q) = Ideal.div (∑ k' : Fin 200000, (val_main_v17 (F := Ideal) x0 x1 x5 x6 (ix2 k' q) + x2 (ix1 q))) Cert.ConvBn.nvox := by
  unfold Cert.ConvBn.nvox
  rw [val_main_v23_apply, v21_at, val_main_v22_apply, val_main_cst_4_apply, Ideal.hostDivf_def, Ideal.ofBits_def]

/-- The mean spread over the voxels. -/
private theorem v25_at (x0 : (⟨S200000x64, .f32⟩ : BufTy).Contents (Elt Ideal)) (x1 : (⟨S27x64x64, .f32⟩ : BufTy).Contents (Elt Ideal))
    (x2 : (⟨S64, .f32⟩ : BufTy).Contents (Elt Ideal)) (x5 x6 : (⟨S27x100000, .i32⟩ : BufTy).Contents (Elt Ideal)) (i : S200000x64.Idx) :
    val_main_v25 (F := Ideal) x0 x1 x2 x5 x6 i = val_main_v23 (F := Ideal) x0 x1 x2 x5 x6 (ix1 (i 1)) := by
  rw [val_main_v25_apply, val_main_v24_apply]
  exact congrArg _ (funext fun a => Fin.ext (by match a with | ⟨0, _⟩ => rfl))

/-- The mean spread over the voxels, the second copy. -/
private theorem v32_at (x0 : (⟨S200000x64, .f32⟩ : BufTy).Contents (Elt Ideal)) (x1 : (⟨S27x64x64, .f32⟩ : BufTy).Contents (Elt Ideal))
    (x2 : (⟨S64, .f32⟩ : BufTy).Contents (Elt Ideal)) (x5 x6 : (⟨S27x100000, .i32⟩ : BufTy).Contents (Elt Ideal)) (i : S200000x64.Idx) :
    val_main_v32 (F := Ideal) x0 x1 x2 x5 x6 i = val_main_v23 (F := Ideal) x0 x1 x2 x5 x6 (ix1 (i 1)) := by
  rw [val_main_v32_apply, val_main_v31_apply]
  exact congrArg _ (funext fun a => Fin.ext (by match a with | ⟨0, _⟩ => rfl))

/-- The squared deviation from the mean at a voxel. -/
private theorem v27_at (x0 : (⟨S200000x64, .f32⟩ : BufTy).Contents (Elt Ideal)) (x1 : (⟨S27x64x64, .f32⟩ : BufTy).Contents (Elt Ideal))
    (x2 : (⟨S64, .f32⟩ : BufTy).Contents (Elt Ideal)) (x5 x6 : (⟨S27x100000, .i32⟩ : BufTy).Contents (Elt Ideal)) (r : Fin 200000) (q : Fin 64) :
    val_main_v27 (F := Ideal) x0 x1 x2 x5 x6 (ix2 r q)
      = ((val_main_v17 (F := Ideal) x0 x1 x5 x6 (ix2 r q) + x2 (ix1 q)) - Ideal.div (∑ k' : Fin 200000, (val_main_v17 (F := Ideal) x0 x1 x5 x6 (ix2 k' q) + x2 (ix1 q))) Cert.ConvBn.nvox) * ((val_main_v17 (F := Ideal) x0 x1 x5 x6 (ix2 r q) + x2 (ix1 q)) - Ideal.div (∑ k' : Fin 200000, (val_main_v17 (F := Ideal) x0 x1 x5 x6 (ix2 k' q) + x2 (ix1 q))) Cert.ConvBn.nvox) := by
  rw [val_main_v27_apply, val_main_v26_apply, v20_at, v25_at, Ideal.mulf_def, Ideal.subf_def]
  exact congrArg (fun t => ((val_main_v17 (F := Ideal) x0 x1 x5 x6 (ix2 r q) + x2 (ix1 q)) - t) * ((val_main_v17 (F := Ideal) x0 x1 x5 x6 (ix2 r q) + x2 (ix1 q)) - t)) (v23_at x0 x1 x2 x5 x6 q)

/-- The channel's variance as the reference takes it: the mean of the squared deviations. -/
private theorem v30_at (x0 : (⟨S200000x64, .f32⟩ : BufTy).Contents (Elt Ideal)) (x1 : (⟨S27x64x64, .f32⟩ : BufTy).Contents (Elt Ideal))
    (x2 : (⟨S64, .f32⟩ : BufTy).Contents (Elt Ideal)) (x5 x6 : (⟨S27x100000, .i32⟩ : BufTy).Contents (Elt Ideal)) (q : Fin 64) :
    val_main_v30 (F := Ideal) x0 x1 x2 x5 x6 (ix1 q) = Ideal.div (∑ k : Fin 200000, ((val_main_v17 (F := Ideal) x0 x1 x5 x6 (ix2 k q) + x2 (ix1 q)) - Ideal.div (∑ k' : Fin 200000, (val_main_v17 (F := Ideal) x0 x1 x5 x6 (ix2 k' q) + x2 (ix1 q))) Cert.ConvBn.nvox) * ((val_main_v17 (F := Ideal) x0 x1 x5 x6 (ix2 k q) + x2 (ix1 q)) - Ideal.div (∑ k' : Fin 200000, (val_main_v17 (F := Ideal) x0 x1 x5 x6 (ix2 k' q) + x2 (ix1 q))) Cert.ConvBn.nvox)) Cert.ConvBn.nvox := by
  rw [val_main_v30_apply, val_main_v28_apply, val_main_cst_5_apply, val_main_v29_apply, val_main_cst_6_apply,
    Ideal.hostDivf_def, Ideal.ofBits_def, Ideal.ofBits_def, Ideal.ofBits_zero_f32, zero_add]
  refine congrArg (fun t => Ideal.div t (Ideal.ofBits .f32 0x48435000#32)) (Finset.sum_congr rfl fun k _ => ?_)
  have h : idx_main_v28 (ix1 q) k = ix2 k q := funext fun a => Fin.ext (by match a with | ⟨0, _⟩ => rfl | ⟨1, _⟩ => rfl)
  rw [h, v27_at]

/-- The reciprocal square root of the guarded variance. -/
private theorem v36_at (x0 : (⟨S200000x64, .f32⟩ : BufTy).Contents (Elt Ideal)) (x1 : (⟨S27x64x64, .f32⟩ : BufTy).Contents (Elt Ideal))
    (x2 : (⟨S64, .f32⟩ : BufTy).Contents (Elt Ideal)) (x5 x6 : (⟨S27x100000, .i32⟩ : BufTy).Contents (Elt Ideal)) (q : Fin 64) :
    val_main_v36 (F := Ideal) x0 x1 x2 x5 x6 (ix1 q) = Ideal.rsqrt (Ideal.div (∑ k : Fin 200000, ((val_main_v17 (F := Ideal) x0 x1 x5 x6 (ix2 k q) + x2 (ix1 q)) - Ideal.div (∑ k' : Fin 200000, (val_main_v17 (F := Ideal) x0 x1 x5 x6 (ix2 k' q) + x2 (ix1 q))) Cert.ConvBn.nvox) * ((val_main_v17 (F := Ideal) x0 x1 x5 x6 (ix2 k q) + x2 (ix1 q)) - Ideal.div (∑ k' : Fin 200000, (val_main_v17 (F := Ideal) x0 x1 x5 x6 (ix2 k' q) + x2 (ix1 q))) Cert.ConvBn.nvox)) Cert.ConvBn.nvox + Cert.ConvBn.eps) := by
  rw [val_main_v36_apply, val_main_v35_apply, v30_at, val_main_v34_apply, val_main_cst_7_apply,
    Ideal.hostUnary_rsqrt_def, Ideal.addf_def, Ideal.ofBits_def]
  rfl

/-- The reciprocal square root spread over the voxels. -/
private theorem v38_at (x0 : (⟨S200000x64, .f32⟩ : BufTy).Contents (Elt Ideal)) (x1 : (⟨S27x64x64, .f32⟩ : BufTy).Contents (Elt Ideal))
    (x2 : (⟨S64, .f32⟩ : BufTy).Contents (Elt Ideal)) (x5 x6 : (⟨S27x100000, .i32⟩ : BufTy).Contents (Elt Ideal)) (i : S200000x64.Idx) :
    val_main_v38 (F := Ideal) x0 x1 x2 x5 x6 i = val_main_v36 (F := Ideal) x0 x1 x2 x5 x6 (ix1 (i 1)) := by
  rw [val_main_v38_apply, val_main_v37_apply]
  exact congrArg _ (funext fun a => Fin.ext (by match a with | ⟨0, _⟩ => rfl))

/-- The scale row spread over the voxels. -/
private theorem v41_at (x3 : (⟨S64, .f32⟩ : BufTy).Contents (Elt Ideal)) (i : S200000x64.Idx) :
    val_main_v41 (F := Ideal) x3 i = x3 (ix1 (i 1)) := by
  rw [val_main_v41_apply, val_main_v40_apply]
  exact congrArg _ (funext fun a => Fin.ext (by match a with | ⟨0, _⟩ => rfl))

/-- The shift row spread over the voxels. -/
private theorem v44_at (x4 : (⟨S64, .f32⟩ : BufTy).Contents (Elt Ideal)) (i : S200000x64.Idx) :
    val_main_v44 (F := Ideal) x4 i = x4 (ix1 (i 1)) := by
  rw [val_main_v44_apply, val_main_v43_apply]
  exact congrArg _ (funext fun a => Fin.ext (by match a with | ⟨0, _⟩ => rfl))

/-- The reference's last stage at a voxel and a channel, in terms of its scattered accumulator. -/
private theorem v47_at (x0 : (⟨S200000x64, .f32⟩ : BufTy).Contents (Elt Ideal)) (x1 : (⟨S27x64x64, .f32⟩ : BufTy).Contents (Elt Ideal))
    (x2 x3 x4 : (⟨S64, .f32⟩ : BufTy).Contents (Elt Ideal)) (x5 x6 : (⟨S27x100000, .i32⟩ : BufTy).Contents (Elt Ideal))
    (r : Fin 200000) (q : Fin 64) :
    val_main_v47 (F := Ideal) x0 x1 x2 x3 x4 x5 x6 (ix2 r q)
      = max (((((val_main_v17 (F := Ideal) x0 x1 x5 x6 (ix2 r q) + x2 (ix1 q)) - Ideal.div (∑ k' : Fin 200000, (val_main_v17 (F := Ideal) x0 x1 x5 x6 (ix2 k' q) + x2 (ix1 q))) Cert.ConvBn.nvox) * Ideal.rsqrt (Ideal.div (∑ k : Fin 200000, ((val_main_v17 (F := Ideal) x0 x1 x5 x6 (ix2 k q) + x2 (ix1 q)) - Ideal.div (∑ k' : Fin 200000, (val_main_v17 (F := Ideal) x0 x1 x5 x6 (ix2 k' q) + x2 (ix1 q))) Cert.ConvBn.nvox) * ((val_main_v17 (F := Ideal) x0 x1 x5 x6 (ix2 k q) + x2 (ix1 q)) - Ideal.div (∑ k' : Fin 200000, (val_main_v17 (F := Ideal) x0 x1 x5 x6 (ix2 k' q) + x2 (ix1 q))) Cert.ConvBn.nvox)) Cert.ConvBn.nvox + Cert.ConvBn.eps)) * x3 (ix1 q)) + x4 (ix1 q))
          (Ideal.ofBits .f32 0x00000000#32) := by
  rw [val_main_v47_apply, val_main_v45_apply, val_main_v42_apply, val_main_v39_apply, val_main_v33_apply,
    v20_at, v32_at, v38_at, v41_at, v44_at, val_main_v46_apply, val_main_cst_8_apply,
    Ideal.maximumf_def, Ideal.addf_def, Ideal.mulf_def, Ideal.mulf_def, Ideal.subf_def, Ideal.ofBits_def]
  rw [show val_main_v23 (F := Ideal) x0 x1 x2 x5 x6 (ix1 ((ix2 r q : S200000x64.Idx) 1)) = Ideal.div (∑ k' : Fin 200000, (val_main_v17 (F := Ideal) x0 x1 x5 x6 (ix2 k' q) + x2 (ix1 q))) Cert.ConvBn.nvox from v23_at x0 x1 x2 x5 x6 q,
    show val_main_v36 (F := Ideal) x0 x1 x2 x5 x6 (ix1 ((ix2 r q : S200000x64.Idx) 1)) = Ideal.rsqrt (Ideal.div (∑ k : Fin 200000, ((val_main_v17 (F := Ideal) x0 x1 x5 x6 (ix2 k q) + x2 (ix1 q)) - Ideal.div (∑ k' : Fin 200000, (val_main_v17 (F := Ideal) x0 x1 x5 x6 (ix2 k' q) + x2 (ix1 q))) Cert.ConvBn.nvox) * ((val_main_v17 (F := Ideal) x0 x1 x5 x6 (ix2 k q) + x2 (ix1 q)) - Ideal.div (∑ k' : Fin 200000, (val_main_v17 (F := Ideal) x0 x1 x5 x6 (ix2 k' q) + x2 (ix1 q))) Cert.ConvBn.nvox)) Cert.ConvBn.nvox + Cert.ConvBn.eps) from v36_at x0 x1 x2 x5 x6 q]

/-- With real entries, the value above is the specification's function of the accumulator and the three rows. -/
private theorem spec_at (a : (⟨S200000x64, .f32⟩ : BufTy).Contents (Elt Ideal)) (x2 x3 x4 : (⟨S64, .f32⟩ : BufTy).Contents (Elt Ideal))
    (ha : ∀ i, ∃ r : ℝ, a i = (r : EReal)) (hb : ∀ i, ∃ r : ℝ, x2 i = (r : EReal)) (r : Fin 200000) (q : Fin 64) :
    max (((((a (ix2 r q) + x2 (ix1 q)) - Ideal.div (∑ k' : Fin 200000, (a (ix2 k' q) + x2 (ix1 q))) Cert.ConvBn.nvox)
        * Ideal.rsqrt (Ideal.div (∑ k : Fin 200000, ((a (ix2 k q) + x2 (ix1 q)) - Ideal.div (∑ k' : Fin 200000, (a (ix2 k' q) + x2 (ix1 q))) Cert.ConvBn.nvox)
            * ((a (ix2 k q) + x2 (ix1 q)) - Ideal.div (∑ k' : Fin 200000, (a (ix2 k' q) + x2 (ix1 q))) Cert.ConvBn.nvox)) Cert.ConvBn.nvox + Cert.ConvBn.eps)) * x3 (ix1 q)) + x4 (ix1 q))
          (Ideal.ofBits .f32 0x00000000#32)
      = Cert.ConvBn.result a (Cert.ConvBn.rowOf x2) (Cert.ConvBn.rowOf x3) (Cert.ConvBn.rowOf x4) (ix2 r q) := by
  have hX : ∀ k : Fin 200000, ∃ t : ℝ, a (ix2 k q) + x2 (ix1 q) = (t : EReal) := fun k => by
    obtain ⟨r1, h1⟩ := ha (ix2 k q)
    obtain ⟨r2, h2⟩ := hb (ix1 q)
    exact ⟨r1 + r2, by rw [h1, h2, EReal.coe_add]⟩
  have hv := Cert.BnLaws.var_centered_eq (fun k => a (ix2 k q) + x2 (ix1 q)) hX
  beta_reduce at hv
  rw [hv]
  rfl

/-- The reference's result is the specification's function of its own scattered accumulator and the bias, scale and
    shift rows, once the accumulator and the bias hold real numbers. -/
theorem result_eq (x0 : (⟨S200000x64, .f32⟩ : BufTy).Contents (Elt Ideal)) (x1 : (⟨S27x64x64, .f32⟩ : BufTy).Contents (Elt Ideal))
    (x2 x3 x4 : (⟨S64, .f32⟩ : BufTy).Contents (Elt Ideal)) (x5 x6 : (⟨S27x100000, .i32⟩ : BufTy).Contents (Elt Ideal))
    (hacc : ∀ i, ∃ r : ℝ, val_main_v17 (F := Ideal) x0 x1 x5 x6 i = (r : EReal))
    (hbias : ∀ i, ∃ r : ℝ, x2 i = (r : EReal)) :
    val_main_v47 (F := Ideal) x0 x1 x2 x3 x4 x5 x6
      = Cert.ConvBn.result (val_main_v17 (F := Ideal) x0 x1 x5 x6) (Cert.ConvBn.rowOf x2) (Cert.ConvBn.rowOf x3) (Cert.ConvBn.rowOf x4) := by
  funext i
  obtain ⟨r, q, rfl⟩ : ∃ (r : Fin 200000) (q : Fin 64), i = ix2 r q := ⟨i 0, i 1, eq_ix2 i⟩
  rw [v47_at]
  generalize val_main_v17 (F := Ideal) x0 x1 x5 x6 = a at hacc ⊢
  exact spec_at a x2 x3 x4 hacc hbias r q

end Cert.ReferenceIdeal.RefValue

end
-- ==== Proof.Bridge.lean ====
/-
  The two programs build the same scattered accumulator. Both gather the same feature rows (the kernel program narrows the
  features and the weights to a shorter float format first, which changes nothing over the extended reals), both multiply
  each gathered row by its offset's weight matrix (the reference as one batched product, element (k, p, d) the same sum over
  the input channels), and both add the products into a zero array at the same rows. Where the features and the
  weights are real numbers every entry of that accumulator is a real number: a finite sum of products of reals.
-/
import proofs.«109595_j56392920596826_1_alg».proof.Proof.KernelValue
import proofs.«109595_j56392920596826_1_alg».proof.Proof.Gen.ReferenceIdeal.Read
import proofs.«109595_j56392920596826_1_alg».proof.Proof.ConvBnSpec
import Idealize.ShloMosaic.Lib.ValueIdx

noncomputable section

open scoped BigOperators
open Idealize.ShloMosaic Idealize.ShloMosaic.TcCoe Idealize.SL.Sem Idealize.ShloMosaic.ValueIdx

namespace Cert.Bridge

/-- An extended real that is a real number. -/
def IsReal (x : EReal) : Prop := ∃ r : ℝ, x = (r : EReal)

theorem isReal_zero : IsReal 0 := ⟨0, rfl⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_sum {ι : Type} (s : Finset ι) (f : ι → EReal) (h : ∀ k ∈ s, IsReal (f k)) : IsReal (∑ k ∈ s, f k) := by
  classical
  induction s using Finset.induction_on with
  | empty => simpa using isReal_zero
  | insert a s ha ih =>
    rw [Finset.sum_insert ha]
    exact isReal_add (h a (Finset.mem_insert_self a s)) (ih fun k hk => h k (Finset.mem_insert_of_mem hk))

/-- The reference's batched product is the per-offset product of its gathered rows and the weights. -/
theorem ref_gemm (x0 : (⟨Cert.ReferenceIdeal.S200000x64, .f32⟩ : BufTy).Contents (Elt Ideal))
    (x1 : (⟨Cert.ReferenceIdeal.S27x64x64, .f32⟩ : BufTy).Contents (Elt Ideal))
    (x5 : (⟨Cert.ReferenceIdeal.S27x100000, .i32⟩ : BufTy).Contents (Elt Ideal)) :
    Cert.ReferenceIdeal.Read.val_main_v7 (F := Ideal) x0 x1 x5
      = Cert.ConvBn.gemm (Cert.ReferenceIdeal.Read.val_main_v6 (F := Ideal) x0 x5) x1 := by
  funext i
  obtain ⟨k, p, d, rfl⟩ : ∃ (k : Fin 27) (p : Fin 100000) (d : Fin 64), i = ix3 k p d := ⟨i 0, i 1, i 2, eq_ix3 i⟩
  rw [Cert.ReferenceIdeal.Read.val_main_v7_apply, Cert.ConvBn.gemm_apply]
  refine Finset.sum_congr rfl fun e _ => ?_
  have el : Cert.ReferenceIdeal.Read.lidx_main_v7 (ix3 k p d) e = ix3 k p e := funext fun a => Fin.ext (by
    match a with
    | ⟨0, _⟩ => rfl
    | ⟨1, _⟩ => rfl
    | ⟨2, _⟩ => rfl)
  have er : Cert.ReferenceIdeal.Read.ridx_main_v7 (ix3 k p d) e = ix3 k e d := funext fun a => Fin.ext (by
    match a with
    | ⟨0, _⟩ => rfl
    | ⟨1, _⟩ => rfl
    | ⟨2, _⟩ => rfl)
  rw [el, er]

/-- The reference's scattered accumulator is the kernel program's, at the same arguments. -/
theorem acc_eq (m : (ℓ : Loc Cert.KernelIdeal.nD Cert.KernelIdeal.τ Cert.KernelIdeal.sig) → Buf (Elt Ideal) ℓ) (c : Dev Cert.KernelIdeal.nD) :
    Cert.ReferenceIdeal.Read.val_main_v17 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Cert.KernelIdeal.KernelValue.acc m c := by
  unfold Cert.ReferenceIdeal.Read.val_main_v17 Cert.ReferenceIdeal.Read.val_main_v10
  refine (congrArg (fun z => Host.scatterAdd (F := Ideal) _ _ _ (shapeCast _ z _)) (ref_gemm _ _ _)).trans ?_
  rfl

/-- An accumulating scatter of real numbers into an array of real numbers holds real numbers: each entry is the operand's
    entry plus a finite sum of updates. -/
theorem scatter_real {s si su : Shape} {φ : FTy} {w : Nat} (d : ScatterDims s si su) (x : FVec Ideal s φ) (idx : IVec si w)
    (upd : FVec Ideal su φ) (hx : ∀ i, IsReal (x i)) (hu : ∀ j, IsReal (upd j)) (i : s.Idx) :
    IsReal (Host.scatterAdd (F := Ideal) d x idx upd i) := by
  show IsReal (Ideal.hostScatterAdd d x idx upd i)
  unfold Ideal.hostScatterAdd
  exact isReal_add (hx i) (isReal_sum _ _ fun j _ => hu j)

/-- Where the features and the weights are real numbers, so is every entry of the scattered accumulator. -/
theorem acc_real (x0 : (⟨Cert.ReferenceIdeal.S200000x64, .f32⟩ : BufTy).Contents (Elt Ideal))
    (x1 : (⟨Cert.ReferenceIdeal.S27x64x64, .f32⟩ : BufTy).Contents (Elt Ideal))
    (x5 x6 : (⟨Cert.ReferenceIdeal.S27x100000, .i32⟩ : BufTy).Contents (Elt Ideal))
    (h0 : ∀ i, ∃ r : ℝ, x0 i = (r : EReal)) (h1 : ∀ i, ∃ r : ℝ, x1 i = (r : EReal)) (i : Cert.ReferenceIdeal.S200000x64.Idx) :
    ∃ r : ℝ, Cert.ReferenceIdeal.Read.val_main_v17 (F := Ideal) x0 x1 x5 x6 i = (r : EReal) := by
  unfold Cert.ReferenceIdeal.Read.val_main_v17
  refine scatter_real _ _ _ _ (fun j => ?_) (fun j => ?_) i
  · exact ⟨0, (show Ideal.ofBits .f32 0x00000000#32 = ((0 : ℝ) : EReal) from Ideal.ofBits_zero_f32)⟩
  · rw [Cert.ReferenceIdeal.Read.val_main_v10_apply, Cert.ReferenceIdeal.Read.val_main_v7_apply]
    refine isReal_sum _ _ fun k _ => isReal_mul ?_ (h1 _)
    unfold Cert.ReferenceIdeal.Read.val_main_v6 Host.gather
    exact h0 _

end Cert.Bridge

end
-- ==== Proof.FiniteInputs.lean ====
/-
  The precondition says every entry of each float argument has absolute value below +∞. Over the extended reals such an
  entry is a real number: it is neither +∞ (whose absolute value is +∞) nor −∞ (likewise).
-/
import proofs.«109595_j56392920596826_1_alg».proof.Pre_finite_inputs
import proofs.«109595_j56392920596826_1_alg».proof.Proof.Gen.Pre_finite_inputs
import Idealize.ShloMosaic.Lib.ReduceAll
import Idealize.ShloMosaic.Lib.ValueIdx
import Idealize.ShloMosaic.PureOps.Ideal

noncomputable section

open Idealize.ShloMosaic Idealize.ShloMosaic.ValueIdx

namespace Cert.FiniteInputs

open Cert.Pre_finite_inputs Cert.Pre_finite_inputs.Facts

instance : Subsingleton S_.Idx := ⟨fun a b => funext fun d => d.elim0⟩

/-- An extended real whose absolute value compares below the float +∞ is a real number. -/
theorem real_of_abs_lt (x : EReal)
    (h : FloatOps.cmpf (F := Ideal) (φ := .f32) CmpFPredicate.olt (FloatOps.hostAbsf (F := Ideal) (φ := .f32) x) (Ideal.ofBits .f32 0x7F800000#32) = 1#1) :
    ∃ r : ℝ, x = (r : EReal) := by
  have htop : Ideal.ofBits .f32 0x7F800000#32 = (⊤ : EReal) := by simp [Ideal.ofBits, Ideal.ieee]
  induction x using EReal.rec with
  | bot =>
    exfalso
    rw [htop] at h
    revert h
    simp [FloatOps.cmpf, FloatOps.hostAbsf, Ideal.cmp]
  | coe r => exact ⟨r, rfl⟩
  | top =>
    exfalso
    rw [htop] at h
    revert h
    simp [FloatOps.cmpf, FloatOps.hostAbsf, Ideal.cmp]

/-- Every entry of an array that passes the elementwise test, reduced by "and" to 1, is a real number. -/
theorem reals_of_all {s : Shape} {axes : List (Fin s.rank)} (a : FVec Ideal s .f32) (hb : S_.BroadcastsInDim s (![] : Fin 0 → Fin s.rank))
    (hr : s.ReducesTo axes S_) (hu : 0 < S_.numel)
    (e : Host.reduce IntOp.andi (cmpf CmpFPredicate.olt (Host.absf a) (broadcastInDim s ![] hb (constant (F := Ideal) S_ .f32 0x7F800000#32)))
          (constantI S_ 1 1#1) hr hu ix0 = 1#1) (i : s.Idx) : ∃ r : ℝ, a i = (r : EReal) :=
  real_of_abs_lt (a i) (Host.reduce_andi_all _ _ hr hu ix0 e i)

/-- Under the precondition the features, the weights and the bias hold real numbers. -/
theorem reals_of_pre (a0 : FVec Ideal S200000x64 .f32) (a1 : FVec Ideal S27x64x64 .f32) (a2 a3 a4 : FVec Ideal S64 .f32)
    (a5 a6 : IVec S27x100000 32) (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [fn, fn_part1] at h0
  obtain ⟨h1, -⟩ := IntOp.andi_eq_one.1 h0
  obtain ⟨h2, -⟩ := IntOp.andi_eq_one.1 h1
  obtain ⟨h3, e2⟩ := IntOp.andi_eq_one.1 h2
  obtain ⟨e0, e1⟩ := IntOp.andi_eq_one.1 h3
  exact ⟨fun i => reals_of_all a0 _ _ _ e0 i, fun i => reals_of_all a1 _ _ _ e1 i, fun i => reals_of_all a2 _ _ _ e2 i⟩

end Cert.FiniteInputs

end
-- ==== Proof.lean ====
/-
  A sparse convolution block — gather, per-offset product, scatter-add, bias, batch normalisation over the voxels, ReLU —
  computed two ways. The kernel program runs the product, the channel statistics and the normalisation as three tiled
  regions with host operations between them and takes the variance as the mean of squares minus the squared mean; the
  reference uses whole-array operations and the mean of the squared deviations. Over the extended reals, with every float
  input a real number, both end with the same array: both build the same scattered accumulator (Bridge), the kernel
  program's result is the specification's function of it (KernelValue), and so is the reference's (RefValue), the two
  variances agreeing because the accumulator and the bias hold real numbers.

  The three frames: the kernel program's at both instances from its regions' frames, the reference's from its run. The
  idealisation rewrote nothing, so its statement is trivial.
-/
import proofs.«109595_j56392920596826_1_alg».proof.Defs
import proofs.«109595_j56392920596826_1_alg».proof.Proof.Gen.Kernel
import proofs.«109595_j56392920596826_1_alg».proof.Proof.Gen.Kernel.Skeleton
import proofs.«109595_j56392920596826_1_alg».proof.Proof.Gen.Kernel.Launch
import proofs.«109595_j56392920596826_1_alg».proof.Proof.Gen.Kernel.Points
import proofs.«109595_j56392920596826_1_alg».proof.Proof.Gen.Kernel.Frame
import proofs.«109595_j56392920596826_1_alg».proof.Proof.Gen.KernelIdeal
import proofs.«109595_j56392920596826_1_alg».proof.Proof.Gen.KernelIdeal.Skeleton
import proofs.«109595_j56392920596826_1_alg».proof.Proof.Gen.KernelIdeal.Launch
import proofs.«109595_j56392920596826_1_alg».proof.Proof.Gen.KernelIdeal.Points
import proofs.«109595_j56392920596826_1_alg».proof.Proof.Gen.KernelIdeal.Frame
import proofs.«109595_j56392920596826_1_alg».proof.Proof.Gen.ReferenceIdeal
import proofs.«109595_j56392920596826_1_alg».proof.Proof.Gen.Pre_finite_inputs
import proofs.«109595_j56392920596826_1_alg».proof.Proof.Gen.ReferenceIdeal.Run
import proofs.«109595_j56392920596826_1_alg».proof.Proof.Gen.ReferenceIdeal.Read
import proofs.«109595_j56392920596826_1_alg».proof.Proof.KernelValue
import proofs.«109595_j56392920596826_1_alg».proof.Proof.RefValue
import proofs.«109595_j56392920596826_1_alg».proof.Proof.Bridge
import proofs.«109595_j56392920596826_1_alg».proof.Proof.FiniteInputs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification's function of the one scattered accumulator and the bias, scale and shift
    rows: the kernel program by its regions' values, the reference by its stages, the accumulator real by the precondition. -/
theorem algebraic : Cert.algebraic_KernelIdeal_ReferenceIdeal := by
  intro m ρ m' ρ' hpre hagree
  refine ⟨fun c => Cert.ConvBn.result (Cert.KernelIdeal.KernelValue.acc m c)
      (Cert.ConvBn.rowOf (m ((c.tc : Thread Cert.KernelIdeal.nD Cert.KernelIdeal.τ).loc Cert.KernelIdeal.main_arg2)))
      (Cert.ConvBn.rowOf (m ((c.tc : Thread Cert.KernelIdeal.nD Cert.KernelIdeal.τ).loc Cert.KernelIdeal.main_arg3)))
      (Cert.ConvBn.rowOf (m ((c.tc : Thread Cert.KernelIdeal.nD Cert.KernelIdeal.τ).loc Cert.KernelIdeal.main_arg4))),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨hr0, hr1, hr2⟩ := Cert.FiniteInputs.reals_of_pre _ _ _ _ _ _ _ (hpre c)
  rw [Cert.ReferenceIdeal.Read.val_main_v47_eq, (hagree c).1, (hagree c).2.1, (hagree c).2.2.1, (hagree c).2.2.2.1,
    (hagree c).2.2.2.2.1, (hagree c).2.2.2.2.2.1, (hagree c).2.2.2.2.2.2]
  rw [Cert.ReferenceIdeal.RefValue.result_eq _ _ _ _ _ _ _ (Cert.Bridge.acc_real _ _ _ _ hr0 hr1) hr2, Cert.Bridge.acc_eq m c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
